-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x128 : Shape := ⟨2, ![512, 128]⟩
abbrev S128 : Shape := ⟨1, ![128]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S512x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S512x512 .f32) (main_arg1 : FVec F S512x512 .f32) (main_arg2 : FVec F S512x128 .f32) (main_arg3 : FVec F S128 .f32) (main_arg4 : FVec F S512x128 .f32) (main_arg5 : FVec F S128 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S512x512 : Shape := ⟨2, ![512, 512]⟩
abbrev S512x128 : Shape := ⟨2, ![512, 128]⟩
abbrev S128 : Shape := ⟨1, ![128]⟩
abbrev S1x128 : Shape := ⟨2, ![1, 128]⟩
abbrev S1x1 : Shape := ⟨2, ![1, 1]⟩
abbrev S8x128 : Shape := ⟨2, ![8, 128]⟩
abbrev S1x512x128 : Shape := ⟨3, ![1, 512, 128]⟩
abbrev S8x1x128 : Shape := ⟨3, ![8, 1, 128]⟩
abbrev S8x512x128 : Shape := ⟨3, ![8, 512, 128]⟩
abbrev S8x512 : Shape := ⟨2, ![8, 512]⟩
abbrev S8x512x1 : Shape := ⟨3, ![8, 512, 1]⟩
abbrev S8x512x512 : Shape := ⟨3, ![8, 512, 512]⟩
abbrev S8 : Shape := ⟨1, ![8]⟩
abbrev S1x8 : Shape := ⟨2, ![1, 8]⟩
abbrev S1 : Shape := ⟨1, ![1]⟩
abbrev S_ : Shape := ⟨0, ![]⟩

abbrev nBuf : Space → Nat
  | .hbm => 10
  | .vmem => 15
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S512x128, .f32⟩
  | .hbm, ⟨7, _⟩ => ⟨S512x128, .f32⟩
  | .hbm, ⟨8, _⟩ => ⟨S1x1, .f32⟩
  | .hbm, ⟨9, _⟩ => ⟨S_, .f32⟩
  | .local _ .vmem, ⟨0, _⟩ => ⟨S512x512, .f32⟩
  | .local _ .vmem, ⟨1, _⟩ => ⟨S512x128, .f32⟩
  | .local _ .vmem, ⟨2, _⟩ => ⟨S128, .f32⟩
  | .local _ .vmem, ⟨3, _⟩ => ⟨S512x512, .f32⟩
  | .local _ .vmem, ⟨4, _⟩ => ⟨S512x128, .f32⟩
  | .local _ .vmem, ⟨5, _⟩ => ⟨S128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S8x128, .f32⟩
  | .local _ .vmem, ⟨10, _⟩ => ⟨S8x128, .f32⟩
  | .local _ .vmem, ⟨11, _⟩ => ⟨S512x128, .f32⟩
  | .local _ .vmem, ⟨12, _⟩ => ⟨S8x128, .f32⟩
  | .local _ .vmem, ⟨13, _⟩ => ⟨S8x128, .f32⟩
  | .local _ .vmem, ⟨14, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S1x1_S1x1_0_0 : ∀ a, (![0, 0] : Fin 2 → Nat) a + S1x1.size a ≤ S1x1.size a
  h_S1x1 : 0 < S1x1.numel
  shapeCasts_S512x128_S512x128 : S512x128.ShapeCasts S512x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S512x128_S1x512x128 : S512x128.ShapeCasts S1x512x128
  shapeCasts_S8x128_S8x1x128 : S8x128.ShapeCasts S8x1x128
  broadcasts_S1x512x128_S8x512x128 : S1x512x128.Broadcasts S8x512x128
  broadcasts_S8x1x128_S8x512x128 : S8x1x128.Broadcasts S8x512x128
  reduces_S8x512x128_S8x512 : S8x512x128.Reduces [2] S8x512
  shapeCasts_S8x512_S8x512x1 : S8x512.ShapeCasts S8x512x1
  broadcasts_S8x512x1_S8x512x128 : S8x512x1.Broadcasts S8x512x128
  bitsLt_bf16_f32 : FTy.bits .bf16 < FTy.bits .f32
  reduces_S8x512x512_S8x512 : S8x512x512.Reduces [2] S8x512
  reduces_S8x512_S8 : S8x512.Reduces [1] S8
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  dot_S512x512_S512x128_S512x128_1_0_0_1_n_n_wf : DotDims.WF S512x512 S512x128 S512x128 [1] [0] [0] [1] [] []
  dot_S8x512x128_S8x512x128_S8x512x512_2_2_1_1_0_0_wf : DotDims.WF S8x512x128 S8x512x128 S8x512x512 [2] [2] [1] [1] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x128.size a
  hwx0_6 : ∀ i : grid0.Coords, EltTy.bits .f32 = 32 ∨ (Rect.block (s := S512x128) S512x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S512x128.size a
  hwx0_7 : ∀ i : grid0.Coords, EltTy.bits .f32 = 32 ∨ (Rect.block (s := S512x128) S512x128.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S512x128.size a
  hwx1_0 : ∀ i : grid1.Coords, EltTy.bits .f32 = 32 ∨ (Rect.block (s := S512x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S512x128.size a
  hwx1_1 : ∀ i : grid1.Coords, EltTy.bits .f32 = 32 ∨ (Rect.block (s := S512x128) S8x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S512x128.size a
  hwx1_3 : ∀ i : grid1.Coords, EltTy.bits .f32 = 32 ∨ (Rect.block (s := S512x128) S8x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S8x512x128_S8x512x128_S8x512x512_2_2_1_1_0_0 : DotDims S8x512x128 S8x512x128 S8x512x512 where
  lhsContracting := [2]
  rhsContracting := [2]
  lhsNonContracting := [1]
  rhsNonContracting := [1]
  lhsBatch := [0]
  rhsBatch := [0]
  wf := dot_S8x512x128_S8x512x128_S8x512x512_2_2_1_1_0_0_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S512x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S512x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0_0) S512x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S8x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x512 : Shape := ⟨2, ![512, 512]⟩
abbrev S512x128 : Shape := ⟨2, ![512, 128]⟩
abbrev S128 : Shape := ⟨1, ![128]⟩
abbrev S1x128 : Shape := ⟨2, ![1, 128]⟩
abbrev S1x512x128 : Shape := ⟨3, ![1, 512, 128]⟩
abbrev S512x1x128 : Shape := ⟨3, ![512, 1, 128]⟩
abbrev S512x512x128 : Shape := ⟨3, ![512, 512, 128]⟩
abbrev S_ : Shape := ⟨0, ![]⟩
abbrev S512x512x1 : Shape := ⟨3, ![512, 512, 1]⟩
abbrev S512x512x512 : Shape := ⟨3, ![512, 512, 512]⟩
abbrev S134217728 : Shape := ⟨1, ![134217728]⟩

abbrev nBuf : Space → Nat
  | .hbm => 54
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x128, .f32⟩
  | .hbm, ⟨3, _⟩ => ⟨S128, .f32⟩
  | .hbm, ⟨4, _⟩ => ⟨S512x128, .f32⟩
  | .hbm, ⟨5, _⟩ => ⟨S128, .f32⟩
  | .hbm, ⟨6, _⟩ => ⟨S512x128, .f32⟩
  | .hbm, ⟨7, _⟩ => ⟨S1x128, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S1x128, .f32⟩
  | .hbm, ⟨12, _⟩ => ⟨S512x128, .f32⟩
  | .hbm, ⟨13, _⟩ => ⟨S512x128, .f32⟩
  | .hbm, ⟨14, _⟩ => ⟨S1x512x128, .f32⟩
  | .hbm, ⟨15, _⟩ => ⟨S512x1x128, .f32⟩
  | .hbm, ⟨16, _⟩ => ⟨S512x512x128, .f32⟩
  | .hbm, ⟨17, _⟩ => ⟨S512x512x128, .f32⟩
  | .hbm, ⟨18, _⟩ => ⟨S512x512x128, .f32⟩
  | .hbm, ⟨19, _⟩ => ⟨S512x512x128, .f32⟩
  | .hbm, ⟨20, _⟩ => ⟨S_, .f32⟩
  | .hbm, ⟨21, _⟩ => ⟨S512x512, .f32⟩
  | .hbm, ⟨22, _⟩ => ⟨S512x512x1, .f32⟩
  | .hbm, ⟨23, _⟩ => ⟨S512x512x1, .f32⟩
  | .hbm, ⟨24, _⟩ => ⟨S_, .f32⟩
  | .hbm, ⟨25, _⟩ => ⟨S512x512x1, .f32⟩
  | .hbm, ⟨26, _⟩ => ⟨S512x512x1, .f32⟩
  | .hbm, ⟨27, _⟩ => ⟨S512x512x128, .f32⟩
  | .hbm, ⟨28, _⟩ => ⟨S512x512x128, .f32⟩
  | .hbm, ⟨29, _⟩ => ⟨S512x512x512, .f32⟩
  | .hbm, ⟨30, _⟩ => ⟨S134217728, .f32⟩
  | .hbm, ⟨31, _⟩ => ⟨S1x512x128, .f32⟩
  | .hbm, ⟨32, _⟩ => ⟨S512x1x128, .f32⟩
  | .hbm, ⟨33, _⟩ => ⟨S512x512x128, .f32⟩
  | .hbm, ⟨34, _⟩ => ⟨S512x512x128, .f32⟩
  | .hbm, ⟨35, _⟩ => ⟨S512x512x128, .f32⟩
  | .hbm, ⟨36, _⟩ => ⟨S512x512x128, .f32⟩
  | .hbm, ⟨37, _⟩ => ⟨S_, .f32⟩
  | .hbm, ⟨38, _⟩ => ⟨S512x512, .f32⟩
  | .hbm, ⟨39, _⟩ => ⟨S512x512x1, .f32⟩
  | .hbm, ⟨40, _⟩ => ⟨S512x512x1, .f32⟩
  | .hbm, ⟨41, _⟩ => ⟨S_, .f32⟩
  | .hbm, ⟨42, _⟩ => ⟨S512x512x1, .f32⟩
  | .hbm, ⟨43, _⟩ => ⟨S512x512x1, .f32⟩
  | .hbm, ⟨44, _⟩ => ⟨S512x512x128, .f32⟩
  | .hbm, ⟨45, _⟩ => ⟨S512x512x128, .f32⟩
  | .hbm, ⟨46, _⟩ => ⟨S512x512x512, .f32⟩
  | .hbm, ⟨47, _⟩ => ⟨S134217728, .f32⟩
  | .hbm, ⟨48, _⟩ => ⟨S134217728, .f32⟩
  | .hbm, ⟨49, _⟩ => ⟨S134217728, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S512x128_S1x512x128_1_2 : S512x128.BroadcastsInDim S1x512x128 (![1, 2] : Fin 2 → Fin S1x512x128.rank)
  bcast_S512x128_S512x1x128_0_2 : S512x128.BroadcastsInDim S512x1x128 (![0, 2] : Fin 2 → Fin S512x1x128.rank)
  bcast_S1x512x128_S512x512x128_0_1_2 : S1x512x128.BroadcastsInDim S512x512x128 (![0, 1, 2] : Fin 3 → Fin S512x512x128.rank)
  bcast_S512x1x128_S512x512x128_0_1_2 : S512x1x128.BroadcastsInDim S512x512x128 (![0, 1, 2] : Fin 3 → Fin S512x512x128.rank)
  reducesTo_S512x512x128_S512x512_d2 : S512x512x128.ReducesTo [2] S512x512
  h_S_ : 0 < S_.numel
  bcast_S512x512_S512x512x1_0_1 : S512x512.BroadcastsInDim S512x512x1 (![0, 1] : Fin 2 → Fin S512x512x1.rank)
  bcast_S_S512x512x1 : S_.BroadcastsInDim S512x512x1 (![] : Fin 0 → Fin S512x512x1.rank)
  bcast_S512x512x1_S512x512x128_0_1_2 : S512x512x1.BroadcastsInDim S512x512x128 (![0, 1, 2] : Fin 3 → Fin S512x512x128.rank)
  shapeCasts_S512x512x512_S134217728 : S512x512x512.ShapeCasts S134217728
  reducesTo_S134217728_S_d0 : S134217728.ReducesTo [0] S_
  dot_S512x512_S512x128_S512x128_1_0_0_1_n_n_wf : DotDims.WF S512x512 S512x128 S512x128 [1] [0] [0] [1] [] []
  dot_S512x512x128_S512x512x128_S512x512x512_2_2_1_1_0_0_wf : DotDims.WF S512x512x128 S512x512x128 S512x512x512 [2] [2] [1] [1] [0] [0]

variable [Facts₀]

def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x512x128_S512x512x128_S512x512x512_2_2_1_1_0_0 : DotDims S512x512x128 S512x512x128 S512x512x512 where
  lhsContracting := [2]
  rhsContracting := [2]
  lhsNonContracting := [1]
  rhsNonContracting := [1]
  lhsBatch := [0]
  rhsBatch := [0]
  wf := dot_S512x512x128_S512x512x128_S512x512x512_2_2_1_1_0_0_wf

class Facts : Prop extends Facts₀ where

variable [Facts]
-- ==== Proof.Bits.EmbedBody.lean ====
/-
  The first launch: the two embeddings. One grid point; the body loads the six operand blocks whole (student, W1, b1,
  teacher, W2, b2), forms  student · W1 + b1  and  teacher · W2 + b2  (a 512×512 by 512×128 product onto a zero
  accumulator, the bias row broadcast down the rows) and stores each whole into its result block. Stated at a
  parameter V, the contents of the core's buffers when the launch is entered.
-/
import proofs.«132771_j86723979641277_1_alg».proof.Proof.Gen.Kernel.Launch
import proofs.«132771_j86723979641277_1_alg».proof.Proof.Gen.Kernel.Skeleton
import proofs.«132771_j86723979641277_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The operand blocks -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand window 0's staging buffer holds its block when the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Operand window 1's staging buffer holds its block when the body runs. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Operand window 2's staging buffer holds its block when the body runs. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Operand window 3's staging buffer holds its block when the body runs. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Operand window 4's staging buffer holds its block when the body runs. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Operand window 5's staging buffer holds its block when the body runs. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX : Rect S512x512 := Rect.unit (s := S512x512) ![0, 0] S512x512.size inb_S512x512_S512x512_0_0
abbrev rW : Rect S512x128 := Rect.unit (s := S512x128) ![0, 0] S512x128.size inb_S512x128_S512x128_0_0
abbrev rB : Rect S128 := Rect.unit (s := S128) ![0] S128.size inb_S128_S128_0

/-! ## What the body leaves in the two result blocks -/

/-- The student embedding's block after the body: one whole store of  x · w + b. -/
def embOut (x : Vec F S512x512 .f32) (w : Vec F S512x128 .f32) (b : Vec F S128 .f32) : Vec F S512x128 .f32 :=
  View.canon [⟨rW, k0_pay1 (View.ld x rX) (View.ld w rW) (View.ld b rB)⟩]

/-- The teacher embedding's block after the body. -/
def embOut' (x : Vec F S512x512 .f32) (w : Vec F S512x128 .f32) (b : Vec F S128 .f32) : Vec F S512x128 .f32 :=
  View.canon [⟨rW, k0_pay2 (View.ld x rX) (View.ld w rW) (View.ld b rB)⟩]

theorem cover_rW (p0 : Vec F S512x128 .f32) (y : S512x128.Idx) :
    ∃ pc ∈ ([⟨rW, p0⟩] : List (View.Piece (Elt F) S512x128 .f32)), y ∈ pc.1.set :=
  View.cover_of_tiled [⟨rW, p0⟩] S512x128.size (by rfl) y

/-! ## The body's triple -/

set_option maxHeartbeats 2000000 in
/-- The body on whole staging memrefs: the six operands' at their contents and the two results' at anything, to the
    operands' as they were and each result's at its embedding. -/
theorem sound_kernel0 (c : Dev nD) (E : Set ℕ) (i : grid0.Coords)
    (a1 : Memref sig .tc .vmem S512x512 .f32) (h1 : a1.IsWhole) (a2 : Memref sig .tc .vmem S512x128 .f32) (h2 : a2.IsWhole)
    (a3 : Memref sig .tc .vmem S128 .f32) (h3 : a3.IsWhole) (a4 : Memref sig .tc .vmem S512x512 .f32) (h4 : a4.IsWhole)
    (a5 : Memref sig .tc .vmem S512x128 .f32) (h5 : a5.IsWhole) (a6 : Memref sig .tc .vmem S128 .f32) (h6 : a6.IsWhole)
    (a7 : Memref sig .tc .vmem S512x128 .f32) (h7 : a7.IsWhole) (a8 : Memref sig .tc .vmem S512x128 .f32) (h8 : a8.IsWhole)
    (x0 : Vec F S512x512 .f32) (x1 : Vec F S512x128 .f32) (x2 : Vec F S128 .f32)
    (x3 : Vec F S512x512 .f32) (x4 : Vec F S512x128 .f32) (x5 : Vec F S128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (embOut x0 x1 x2) ∗ owns (c : Thread nD τ) a8 fullShare (embOut' x3 x4 x5)) -∗ K ⟨⟩))
      ⊢ wp frame (wpE (defs₀ (F := F)) Variants.none c none) E (cc0__embed_kernel i a1 h1 a2 h2 a3 h3 a4 h4 a5 h5 a6 h6 a7 h7 a8 h8) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rW _)
  iexists _; isplitr
  swap; · iexact H7
  ipureintro
  exact View.read_writes_eq_canon _ _ _ (cover_rW _)

/-! ## The launch's proof data -/

/-- After the body each operand's buffer holds its block and each result's its embedding of the operand blocks;
    nothing is kept between points, nothing owed, every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => embOut (iblk0 V c 0 t) (iblk0 V c 1 t) (iblk0 V c 2 t)
    | ⟨7, _⟩ => embOut' (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = embOut (iblk0 V c 0 t) (iblk0 V c 1 t) (iblk0 V c 2 t) := by dsimp only [dat0]
theorem after0_7 (c : Dev nD) (t : Fin cfg0.N) : (dat0 V c).after 7 t = embOut' (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.AngleRuns.lean ====
/-
  The second launch's body, run whole, in each of the three ways its two branches fall over the 64 grid points:
  at the first point the running sum is reset to zero before the point's partial sum is added; at the points between
  the partial sum is added to what the point before left; at the last point it is added and the total divided by 512³.
  Each run leaves the result block's final contents as the list of the stores it made.
-/
import proofs.«132771_j86723979641277_1_alg».proof.Proof.Gen.Kernel.Launch
import proofs.«132771_j86723979641277_1_alg».proof.Proof.Gen.Kernel.Skeleton
import proofs.«132771_j86723979641277_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinate -/

/-- "this is the first point" as the body computes it. -/
abbrev cond1_0 (i : grid1.Coords) : Prop := (Scalar.cmpi .ne (Scalar.extui (Scalar.cmpi .eq (BitVec.ofNat 32 (i 0).val) 0#32)) 0#32) = 1#1
/-- "this is the last point" as the body computes it. -/
abbrev cond1_1 (i : grid1.Coords) : Prop := (Scalar.cmpi .ne (Scalar.extui (Scalar.cmpi .eq (BitVec.ofNat 32 (i 0).val) 63#32)) 0#32) = 1#1

theorem hcond1_0 : ∀ t : Fin cfg1.N, cond1_0 (grid1.coords t) ↔ t.val % 64 = 0 :=
  (by decide +kernel : ∀ t : Fin grid1.N, cond1_0 (grid1.coords t) ↔ t.val % 64 = 0)
theorem hcond1_1 : ∀ t : Fin cfg1.N, cond1_1 (grid1.coords t) ↔ t.val % 64 = 63 :=
  (by decide +kernel : ∀ t : Fin grid1.N, cond1_1 (grid1.coords t) ↔ t.val % 64 = 63)

/-! ## The three runs -/

set_option maxHeartbeats 4000000 in
noncomputable def runFirst (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : cond1_0 i) (hc1 : ¬cond1_1 i)
    (x0 : Vec F S512x128 .f32) (x1 : Vec F S8x128 .f32) (x2 : Vec F S512x128 .f32) (x3 : Vec F S8x128 .f32) :
    { L : List (View.Piece (Elt F) S1x1 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d)
            ∗ (iprop(owns (c : Thread nD τ) a1 fullShare x0 ∗ owns (c : Thread nD τ) a2 fullShare x1 ∗ owns (c : Thread nD τ) a3 fullShare x2 ∗ owns (c : Thread nD τ) a4 fullShare x3
                ∗ (∃ f, a5.view.loc (c : Thread nD τ) ↦[a5.view.set]{fullShare} a5.view.writes (Elt F) f L)) -∗ K ⟨⟩))
          ⊢ wp frame (wpE (defs₀ (F := F)) Variants.none c none) E (cc1__angle_loss_kernel i a1 h1 a2 h2 a3 h3 a4 h4 a5 h5) K } := by
  refine ⟨?_, fun E K => ?run⟩
  case run =>
    haveI : Fact (cond1_0 i) := ⟨hc0⟩
    haveI : Fact (¬cond1_1 i) := ⟨hc1⟩
    simp only [cc1__angle_loss_kernel_eq_skeleton]; unfold cc1__angle_loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h1.eq_unread hf0; obtain rfl := h2.eq_unread hf1; obtain rfl := h3.eq_unread hf2; obtain rfl := h4.eq_unread hf3
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact H4

set_option maxHeartbeats 4000000 in
noncomputable def runMid (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : ¬cond1_1 i)
    (x0 : Vec F S512x128 .f32) (x1 : Vec F S8x128 .f32) (x2 : Vec F S512x128 .f32) (x3 : Vec F S8x128 .f32) (xo : Vec F S1x1 .f32) :
    { L : List (View.Piece (Elt F) S1x1 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare xo
            ∗ (iprop(owns (c : Thread nD τ) a1 fullShare x0 ∗ owns (c : Thread nD τ) a2 fullShare x1 ∗ owns (c : Thread nD τ) a3 fullShare x2 ∗ owns (c : Thread nD τ) a4 fullShare x3
                ∗ (∃ f, a5.view.loc (c : Thread nD τ) ↦[a5.view.set]{fullShare} a5.view.writes (Elt F) f L)) -∗ K ⟨⟩))
          ⊢ wp frame (wpE (defs₀ (F := F)) Variants.none c none) E (cc1__angle_loss_kernel i a1 h1 a2 h2 a3 h3 a4 h4 a5 h5) K } := by
  refine ⟨?_, fun E K => ?run⟩
  case run =>
    haveI : Fact (¬cond1_0 i) := ⟨hc0⟩
    haveI : Fact (¬cond1_1 i) := ⟨hc1⟩
    simp only [cc1__angle_loss_kernel_eq_skeleton]; unfold cc1__angle_loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h1.eq_unread hf0; obtain rfl := h2.eq_unread hf1; obtain rfl := h3.eq_unread hf2; obtain rfl := h4.eq_unread hf3; obtain rfl := h5.eq_unread hf4
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact H4

set_option maxHeartbeats 4000000 in
noncomputable def runLast (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : cond1_1 i)
    (x0 : Vec F S512x128 .f32) (x1 : Vec F S8x128 .f32) (x2 : Vec F S512x128 .f32) (x3 : Vec F S8x128 .f32) (xo : Vec F S1x1 .f32) :
    { L : List (View.Piece (Elt F) S1x1 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare xo
            ∗ (iprop(owns (c : Thread nD τ) a1 fullShare x0 ∗ owns (c : Thread nD τ) a2 fullShare x1 ∗ owns (c : Thread nD τ) a3 fullShare x2 ∗ owns (c : Thread nD τ) a4 fullShare x3
                ∗ (∃ f, a5.view.loc (c : Thread nD τ) ↦[a5.view.set]{fullShare} a5.view.writes (Elt F) f L)) -∗ K ⟨⟩))
          ⊢ wp frame (wpE (defs₀ (F := F)) Variants.none c none) E (cc1__angle_loss_kernel i a1 h1 a2 h2 a3 h3 a4 h4 a5 h5) K } := by
  refine ⟨?_, fun E K => ?run⟩
  case run =>
    haveI : Fact (¬cond1_0 i) := ⟨hc0⟩
    haveI : Fact (cond1_1 i) := ⟨hc1⟩
    simp only [cc1__angle_loss_kernel_eq_skeleton]; unfold cc1__angle_loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h1.eq_unread hf0; obtain rfl := h2.eq_unread hf1; obtain rfl := h3.eq_unread hf2; obtain rfl := h4.eq_unread hf3; obtain rfl := h5.eq_unread hf4
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact H4

end Cert.Kernel.Hand

end
-- ==== Proof.Bits.AngleBody.lean ====
/-
  The second launch: the angle loss over 64 grid points of 8 centre rows each. Two operand windows hold the whole
  embedding tables (fetched once), two hold the point's 8 centre rows (fetched at every point); the one result block,
  a single number, stays in its staging buffer from point to point and is written back after the last. What it holds
  after each point is defined by recursion on the point from the three whole-body runs. Stated at a parameter V,
  the contents of the core's buffers when the launch is entered.
-/
import proofs.«132771_j86723979641277_1_alg».proof.Proof.Gen.Kernel.Launch
import proofs.«132771_j86723979641277_1_alg».proof.Proof.Gen.Kernel.Skeleton
import proofs.«132771_j86723979641277_1_alg».proof.Proof.Gen.Kernel.Points
import proofs.«132771_j86723979641277_1_alg».proof.Proof.Bits.AngleRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The operand blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Operand window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Operand window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Operand window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point -/

abbrev VO : View sig .tc .vmem S1x1 .f32 := (Memref.whole cc1_stg4_0 : Memref sig .tc .vmem S1x1 .f32).view
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-! ## What each run leaves in the result block -/

theorem coverFirst (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : cond1_0 i) (hc1 : ¬cond1_1 i) (x0 : Vec F S512x128 .f32) (x1 : Vec F S8x128 .f32) (x2 : Vec F S512x128 .f32) (x3 : Vec F S8x128 .f32) (y : S1x1.Idx) :
    ∃ pc ∈ (runFirst c i a1 h1 a2 h2 a3 h3 a4 h4 a5 h5 hc0 hc1 x0 x1 x2 x3).1, y ∈ pc.1.set :=
  View.cover_of_tiledL (runFirst c i a1 h1 a2 h2 a3 h3 a4 h4 a5 h5 hc0 hc1 x0 x1 x2 x3).1 S1x1.size (by sl_kernel_rfl) y

def outFirst (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : cond1_0 i) (hc1 : ¬cond1_1 i) (x0 : Vec F S512x128 .f32) (x1 : Vec F S8x128 .f32) (x2 : Vec F S512x128 .f32) (x3 : Vec F S8x128 .f32) : Vec F S1x1 .f32 :=
  VO.read (Elt F) (VO.writes (Elt F) VO.junk (runFirst c i a1 h1 a2 h2 a3 h3 a4 h4 a5 h5 hc0 hc1 x0 x1 x2 x3).1)

theorem coverMid (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : ¬cond1_1 i) (x0 : Vec F S512x128 .f32) (x1 : Vec F S8x128 .f32) (x2 : Vec F S512x128 .f32) (x3 : Vec F S8x128 .f32) (xo : Vec F S1x1 .f32) (y : S1x1.Idx) :
    ∃ pc ∈ (runMid c i a1 h1 a2 h2 a3 h3 a4 h4 a5 h5 hc0 hc1 x0 x1 x2 x3 xo).1, y ∈ pc.1.set :=
  View.cover_of_tiledL (runMid c i a1 h1 a2 h2 a3 h3 a4 h4 a5 h5 hc0 hc1 x0 x1 x2 x3 xo).1 S1x1.size (by sl_kernel_rfl) y

def outMid (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : ¬cond1_1 i) (x0 : Vec F S512x128 .f32) (x1 : Vec F S8x128 .f32) (x2 : Vec F S512x128 .f32) (x3 : Vec F S8x128 .f32) (xo : Vec F S1x1 .f32) : Vec F S1x1 .f32 :=
  VO.read (Elt F) (VO.writes (Elt F) VO.junk (runMid c i a1 h1 a2 h2 a3 h3 a4 h4 a5 h5 hc0 hc1 x0 x1 x2 x3 xo).1)

theorem coverLast (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : cond1_1 i) (x0 : Vec F S512x128 .f32) (x1 : Vec F S8x128 .f32) (x2 : Vec F S512x128 .f32) (x3 : Vec F S8x128 .f32) (xo : Vec F S1x1 .f32) (y : S1x1.Idx) :
    ∃ pc ∈ (runLast c i a1 h1 a2 h2 a3 h3 a4 h4 a5 h5 hc0 hc1 x0 x1 x2 x3 xo).1, y ∈ pc.1.set :=
  View.cover_of_tiledL (runLast c i a1 h1 a2 h2 a3 h3 a4 h4 a5 h5 hc0 hc1 x0 x1 x2 x3 xo).1 S1x1.size (by sl_kernel_rfl) y

def outLast (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : cond1_1 i) (x0 : Vec F S512x128 .f32) (x1 : Vec F S8x128 .f32) (x2 : Vec F S512x128 .f32) (x3 : Vec F S8x128 .f32) (xo : Vec F S1x1 .f32) : Vec F S1x1 .f32 :=
  VO.read (Elt F) (VO.writes (Elt F) VO.junk (runLast c i a1 h1 a2 h2 a3 h3 a4 h4 a5 h5 hc0 hc1 x0 x1 x2 x3 xo).1)

/-! ## The running sum, point by point -/

theorem lt64 {n : ℕ} (hn : n < cfg1.N) : n < 64 := lt_of_lt_of_eq hn (show cfg1.N = 64 from N_1)

/-- What the result block's staging buffer holds after the body at position n: the first run at position 0; afterwards
    the middle run, or at position 63 the last run, over what position n − 1 left. -/
def accAt (c : Dev nD) : (n : ℕ) → n < cfg1.N → Vec F S1x1 .f32
  | 0, hn => outFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _))
      (fun h => by have h' := (hcond1_1 ⟨0, hn⟩).mp h; dsimp only at h'; omega) (iblk1 V c 0 ⟨0, hn⟩) (iblk1 V c 1 ⟨0, hn⟩) (iblk1 V c 2 ⟨0, hn⟩) (iblk1 V c 3 ⟨0, hn⟩)
  | n + 1, hn =>
    if h63 : (n + 1) % 64 = 63 then
      outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => by have h' := (hcond1_0 ⟨n + 1, hn⟩).mp h; have := lt64 hn; dsimp only at h'; omega)
        ((hcond1_1 ⟨n + 1, hn⟩).mpr h63) (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn))
    else
      outMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => by have h' := (hcond1_0 ⟨n + 1, hn⟩).mp h; have := lt64 hn; dsimp only at h'; omega)
        (fun h => h63 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn))

theorem accAt_first (c : Dev nD) (t : Fin cfg1.N) (h0 : t.val % 64 = 0) (hc1 : ¬cond1_1 (grid1.coords t)) :
    accAt V c t.val t.isLt = outFirst c (grid1.coords t) (ms1_0 t) (hs1_0 t) (ms1_1 t) (hs1_1 t) (ms1_2 t) (hs1_2 t) (ms1_3 t) (hs1_3 t) (ms1_4 t) (hs1_4 t) ((hcond1_0 t).mpr h0) hc1 (iblk1 V c 0 t) (iblk1 V c 1 t) (iblk1 V c 2 t) (iblk1 V c 3 t) := by
  obtain ⟨n, hn⟩ := t
  have := lt64 hn
  cases n with
  | zero => exact rfl
  | succ n => exact (by exfalso; dsimp only at h0; omega)

theorem accAt_mid (c : Dev nD) (t : Fin cfg1.N) (hc0 : ¬cond1_0 (grid1.coords t)) (h63 : ¬t.val % 64 = 63) :
    accAt V c t.val t.isLt = outMid c (grid1.coords t) (ms1_0 t) (hs1_0 t) (ms1_1 t) (hs1_1 t) (ms1_2 t) (hs1_2 t) (ms1_3 t) (hs1_3 t) (ms1_4 t) (hs1_4 t) hc0 (fun h => h63 ((hcond1_1 t).mp h)) (iblk1 V c 0 t) (iblk1 V c 1 t) (iblk1 V c 2 t) (iblk1 V c 3 t)
      (accAt V c (t.val - 1) (Nat.lt_of_le_of_lt (Nat.sub_le _ _) t.isLt)) := by
  obtain ⟨n, hn⟩ := t
  cases n with
  | zero => exact (by exfalso; exact hc0 ((hcond1_0 ⟨0, hn⟩).mpr (Nat.zero_mod _)))
  | succ n => exact (dif_neg h63).trans rfl

theorem accAt_last (c : Dev nD) (t : Fin cfg1.N) (hc0 : ¬cond1_0 (grid1.coords t)) (h63 : t.val % 64 = 63) :
    accAt V c t.val t.isLt = outLast c (grid1.coords t) (ms1_0 t) (hs1_0 t) (ms1_1 t) (hs1_1 t) (ms1_2 t) (hs1_2 t) (ms1_3 t) (hs1_3 t) (ms1_4 t) (hs1_4 t) hc0 ((hcond1_1 t).mpr h63) (iblk1 V c 0 t) (iblk1 V c 1 t) (iblk1 V c 2 t) (iblk1 V c 3 t)
      (accAt V c (t.val - 1) (Nat.lt_of_le_of_lt (Nat.sub_le _ _) t.isLt)) := by
  obtain ⟨n, hn⟩ := t
  cases n with
  | zero => exact (by exfalso; dsimp only at h63; omega)
  | succ n => exact (dif_pos h63).trans rfl

/-! ## The launch's proof data -/

/-- After the body each operand's buffer holds its block and the result's the running sum; the two windows on one
    embedding table hold the two halves of its share; nothing is kept between points besides, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accAt V c t.val t.isLt
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- After the first point the result's staging buffer holds what the point before left: it is written back only
    after the last point. -/
theorem before1_4_pos (c : Dev nD) (t : Fin cfg1.N) (h0 : ¬t.val % 64 = 0) (d) :
    (dat1 V c).before 4 t d = accAt V c (t.val - 1) (Nat.lt_of_le_of_lt (Nat.sub_le _ _) t.isLt) := by
  have hN : t.val < 64 := lt64 t.isLt
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 64 := lt64 t.isLt
  by_cases h0 : t.val % 64 = 0
  · have hc1 : ¬cond1_1 (grid1.coords t) := fun h => by have := (hcond1_1 t).mp h; omega
    rw [accAt_first V c t h0 hc1]
    unfold outFirst
    iintro ⟨HΦ, Ho, ⟨%d0, H0⟩, ⟨%d1, H1⟩, ⟨%d2, H2⟩, ⟨%d3, H3⟩, ⟨%d4, H4⟩⟩
    iapply ((runFirst c (grid1.coords t) _ _ _ _ _ _ _ _ _ _ ((hcond1_0 t).mpr h0) hc1 (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _)
  · have hc0 : ¬cond1_0 (grid1.coords t) := fun h => h0 ((hcond1_0 t).mp h)
    by_cases h63 : t.val % 64 = 63
    · rw [accAt_last V c t hc0 h63]
      simp only [before1_4_pos V c t h0]
      unfold outLast
      iintro ⟨HΦ, Ho, ⟨%d0, H0⟩, ⟨%d1, H1⟩, ⟨%d2, H2⟩, ⟨%d3, H3⟩, ⟨%d4, H4⟩⟩
      iapply ((runLast c (grid1.coords t) _ _ _ _ _ _ _ _ _ _ hc0 ((hcond1_1 t).mpr h63) (iblk1 V c 0 t) (iblk1 V c 1 t) (iblk1 V c 2 t) (iblk1 V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast c _ _ _ _ _ _ _ _ _ _ _ _ _ _ _ _ _ _)
    · rw [accAt_mid V c t hc0 h63]
      simp only [before1_4_pos V c t h0]
      unfold outMid
      iintro ⟨HΦ, Ho, ⟨%d0, H0⟩, ⟨%d1, H1⟩, ⟨%d2, H2⟩, ⟨%d3, H3⟩, ⟨%d4, H4⟩⟩
      iapply ((runMid c (grid1.coords t) _ _ _ _ _ _ _ _ _ _ hc0 (fun h => h63 ((hcond1_1 t).mp h)) (iblk1 V c 0 t) (iblk1 V c 1 t) (iblk1 V c 2 t) (iblk1 V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverMid c _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.SharedTables.lean ====
/-
  The second launch reads each embedding table through two windows (the whole table, and the point's 8 centre rows).
  The table's buffer is held whole outside the launch; inside, each of the two windows holds one half of its share.
  Here: the launch's five arrays spelt out buffer by buffer, split out of the core's buffers on the way in and joined
  back on the way out, where the two halves of a table hold the same contents again (an operand is never written).
-/
import proofs.«132771_j86723979641277_1_alg».proof.Proof.Gen.Kernel.Launch
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable {c : Dev nD} (dat : Dat τ (Elt F) Unit ℕ (UR sig nD τ) ℕ cfg1 c)

/-- The five arrays, buffer by buffer: each table's two windows at the two halves of its share, the result whole. -/
theorem arrays1_eq (hq0 : dat.q 0 = fullShare.left) (hq1 : dat.q 1 = fullShare.right) (hq2 : dat.q 2 = fullShare.left) (hq3 : dat.q 3 = fullShare.right)
    (Fs : (w : Fin cfg1.W) → Buf (Elt F) ((cfg1.win w).arr.view.loc (c : Thread nD τ))) :
    (dat.arrays Fs : sProp 𝕄) = iprop((((c : Thread nD τ).loc main_v0_0) ↦{fullShare.left} Fs 0) ∗ (((c : Thread nD τ).loc main_v0_0) ↦{fullShare.right} Fs 1)
      ∗ (((c : Thread nD τ).loc main_v0_1) ↦{fullShare.left} Fs 2) ∗ (((c : Thread nD τ).loc main_v0_1) ↦{fullShare.right} Fs 3)
      ∗ (((c : Thread nD τ).loc main_v1) ↦{fullShare} Fs 4)) := by
  unfold Dat.arrays
  rw [bigSep_W1]
  simp only [(arr_whole1 0).set_eq_univ, (arr_whole1 1).set_eq_univ, (arr_whole1 2).set_eq_univ, (arr_whole1 3).set_eq_univ, (arr_whole1 4).set_eq_univ,
    show dat.share 0 = fullShare.left from hq0, show dat.share 1 = fullShare.right from hq1, show dat.share 2 = fullShare.left from hq2,
    show dat.share 3 = fullShare.right from hq3, show dat.share 4 = fullShare from rfl]

/-- The three buffers behind the five arrays, each whole. -/
theorem arrBufs1_eq (V : (b : Ref sig .tc) → Buf (Elt F) ((c : Thread nD τ).loc b)) :
    (Pipeline.arrBufs spec1 c V : sProp 𝕄) = iprop((((c : Thread nD τ).loc main_v0_0) ↦{fullShare} V main_v0_0)
      ∗ (((c : Thread nD τ).loc main_v0_1) ↦{fullShare} V main_v0_1) ∗ (((c : Thread nD τ).loc main_v1) ↦{fullShare} V main_v1)) := by
  unfold Pipeline.arrBufs
  rw [show Finset.univ.image (Pipeline.arrRef spec1) = {main_v0_0, main_v0_1, main_v1} from by decide]
  rw [BI.bigSep_insert (by decide), BI.bigSep_insert (by decide), BI.bigSep_singleton]
  rfl

/-- ON THE WAY IN: the core's buffers at contents V give the launch its five arrays at their entry contents — each
    table's whole share cut in two for its two windows — beside the buffers the launch does not touch. -/
theorem arrays1_of_unscopedBufs (hq0 : dat.q 0 = fullShare.left) (hq1 : dat.q 1 = fullShare.right) (hq2 : dat.q 2 = fullShare.left) (hq3 : dat.q 3 = fullShare.right)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  rw [show (unscopedBufs c V : sProp 𝕄) = iprop(Pipeline.arrBufs spec1 c V ∗ Pipeline.unscopedRest spec1 c V) from
      Pipeline.unscopedBufs_split₀ cfgs (1 : Fin 2) winFacts₀1.arr_unscoped c V, arrBufs1_eq, arrays1_eq dat hq0 hq1 hq2 hq3]
  rw [show dat.arrAt 0 0 = V main_v0_0 from hA 0, show dat.arrAt 1 0 = V main_v0_0 from hA 1, show dat.arrAt 2 0 = V main_v0_1 from hA 2,
    show dat.arrAt 3 0 = V main_v0_1 from hA 3, show dat.arrAt 4 0 = V main_v1 from hA 4]
  iintro ⟨⟨H0, H1, H2⟩, Hr⟩
  ihave H0' := (pointsTo_share (PosShare.mem_left_op_right fullShare)).1 $$ H0
  icases H0' with ⟨H0a, H0b⟩
  ihave H1' := (pointsTo_share (PosShare.mem_left_op_right fullShare)).1 $$ H1
  icases H1' with ⟨H1a, H1b⟩
  isplitr [Hr]
  · isplitl [H0a]; · iexact H0a
    isplitl [H0b]; · iexact H0b
    isplitl [H1a]; · iexact H1a
    isplitl [H1b]; · iexact H1b
    iexact H2
  iexact Hr

/-- ON THE WAY OUT: the five arrays at their final contents and the untouched buffers are the core's buffers at any
    contents V' that agree with V except at the result, where they hold what the launch wrote: the two halves of a
    table are joined again, both at the table's entry contents. -/
theorem unscopedBufs_of_arrays1 (hq0 : dat.q 0 = fullShare.left) (hq1 : dat.q 1 = fullShare.right) (hq2 : dat.q 2 = fullShare.left) (hq3 : dat.q 3 = fullShare.right)
    (V V' : (b : Ref sig .tc) → Buf (Elt F) ((c : Thread nD τ).loc b)) (hA : ∀ w, dat.A w = V (Pipeline.arrRef spec1 w))
    (h1 : V' main_v1 = dat.arrAt 4 cfg1.N) (hrest : ∀ b, b ≠ main_v1 → V' b = V b) :
    iprop(dat.arrays (dat.arrAt · cfg1.N) ∗ Pipeline.unscopedRest spec1 c V) ⊢ (unscopedBufs c V' : sProp 𝕄) := by
  rw [show (unscopedBufs c V' : sProp 𝕄) = iprop(Pipeline.arrBufs spec1 c V' ∗ Pipeline.unscopedRest spec1 c V') from
      Pipeline.unscopedBufs_split₀ cfgs (1 : Fin 2) winFacts₀1.arr_unscoped c V', arrBufs1_eq, arrays1_eq dat hq0 hq1 hq2 hq3]
  rw [show dat.arrAt 0 cfg1.N = V' main_v0_0 from ((dat.arrAt_in 0 rfl _).trans (hA 0)).trans (hrest main_v0_0 (by decide)).symm,
    show dat.arrAt 1 cfg1.N = V' main_v0_0 from ((dat.arrAt_in 1 rfl _).trans (hA 1)).trans (hrest main_v0_0 (by decide)).symm,
    show dat.arrAt 2 cfg1.N = V' main_v0_1 from ((dat.arrAt_in 2 rfl _).trans (hA 2)).trans (hrest main_v0_1 (by decide)).symm,
    show dat.arrAt 3 cfg1.N = V' main_v0_1 from ((dat.arrAt_in 3 rfl _).trans (hA 3)).trans (hrest main_v0_1 (by decide)).symm,
    show dat.arrAt 4 cfg1.N = V' main_v1 from h1.symm]
  have hr : (Pipeline.unscopedRest spec1 c V : sProp 𝕄) = Pipeline.unscopedRest spec1 c V' := by
    unfold Pipeline.unscopedRest
    refine bigSep_congr fun b hb => ?_
    rw [hrest b (fun e => (Finset.mem_sdiff.mp hb).2 (Finset.mem_image.mpr ⟨4, Finset.mem_univ _, e ▸ rfl⟩))]
  rw [hr]
  iintro ⟨⟨H0a, H0b, H1a, H1b, H2⟩, Hr⟩
  isplitr [Hr]
  · isplitl [H0a H0b]
    · iapply (pointsTo_share (PosShare.mem_left_op_right fullShare)).2
      isplitl [H0a]; · iexact H0a
      iexact H0b
    isplitl [H1a H1b]
    · iapply (pointsTo_share (PosShare.mem_left_op_right fullShare)).2
      isplitl [H1a]; · iexact H1a
      iexact H1b
    iexact H2
  iexact Hr

end Cert.Kernel.Hand

end
-- ==== Proof.Bits.Program.lean ====
/-
  The whole program on a core: the embedding launch, the angle-loss launch, and the host's reshape of the 1×1 result
  to a scalar. The contents of the core's unscoped buffers are followed boundary by boundary: as launched; after the
  first launch (its two result tables at what its write-backs leave); after the second (its result block likewise);
  after the reshape. Each launch is entered from the buffers at one boundary and left at the next; the run reads the
  last boundary off the final memory. Every argument array is carried through unchanged.
-/
import proofs.«132771_j86723979641277_1_alg».proof.Proof.Gen.Kernel.Launch
import proofs.«132771_j86723979641277_1_alg».proof.Proof.Gen.Kernel.Skeleton
import proofs.«132771_j86723979641277_1_alg».proof.Proof.Gen.Kernel.Points
import proofs.«132771_j86723979641277_1_alg».proof.Proof.Gen.Kernel.Regions
import proofs.«132771_j86723979641277_1_alg».proof.Proof.Bits.EmbedBody
import proofs.«132771_j86723979641277_1_alg».proof.Proof.Bits.AngleBody
import proofs.«132771_j86723979641277_1_alg».proof.Proof.Bits.SharedTables
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- As launched. -/
abbrev W0 : Dev nD → Valuation τ sig (Elt F) := fun c b => m (c, b)
abbrev V0 : (c : Dev nD) → (b : Ref sig .tc) → Buf (Elt F) ((c : Thread nD τ).loc b) := fun c b => W0 m c b

/-- After the embedding launch: its arrays at what the pipeline leaves, the rest as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the angle-loss launch: its result block at what the pipeline leaves, everything else as entered. -/
def W2 (c : Dev nD) : Valuation τ sig (Elt F) :=
  Function.update (W1 m c) (Proc.devRef .tc main_v1) ((dat1 (V1 m) c).arrAt 4 cfg1.N)
theorem W2_main_v1 (c : Dev nD) : W2 m c (Proc.devRef .tc main_v1) = (dat1 (V1 m) c).arrAt 4 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m c b

/-- After the reshape. -/
abbrev W3 : Dev nD → Valuation τ sig (Elt F) := fun c => StableHlo.after hostOps2 (W2 m c)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := W2_of_ne m c main_arg0 (by decide)
    _ = m ((c : Thread nD τ).loc main_arg0) := (W1_arr m c 0).trans (((dat0 (V0 m) c).arrAt_in 0 rfl _).trans (A_eq0 (V0 m) c 0))

theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    _ = W1 m c (Proc.devRef .tc main_arg1) := W2_of_ne m c main_arg1 (by decide)
    _ = m ((c : Thread nD τ).loc main_arg1) := (W1_arr m c 3).trans (((dat0 (V0 m) c).arrAt_in 3 rfl _).trans (A_eq0 (V0 m) c 3))

theorem W3_main_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_writes_sub hostOps2 _ hostOps2_writes (by decide)
    _ = W1 m c (Proc.devRef .tc main_arg2) := W2_of_ne m c main_arg2 (by decide)
    _ = m ((c : Thread nD τ).loc main_arg2) := (W1_arr m c 1).trans (((dat0 (V0 m) c).arrAt_in 1 rfl _).trans (A_eq0 (V0 m) c 1))

theorem W3_main_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_writes_sub hostOps2 _ hostOps2_writes (by decide)
    _ = W1 m c (Proc.devRef .tc main_arg3) := W2_of_ne m c main_arg3 (by decide)
    _ = m ((c : Thread nD τ).loc main_arg3) := (W1_arr m c 2).trans (((dat0 (V0 m) c).arrAt_in 2 rfl _).trans (A_eq0 (V0 m) c 2))

theorem W3_main_arg4 (c : Dev nD) : W3 m c (Proc.devRef .tc main_arg4) = m ((c : Thread nD τ).loc main_arg4) :=
  calc W3 m c (Proc.devRef .tc main_arg4)
    _ = W2 m c (Proc.devRef .tc main_arg4) := StableHlo.after_of_writes_sub hostOps2 _ hostOps2_writes (by decide)
    _ = W1 m c (Proc.devRef .tc main_arg4) := W2_of_ne m c main_arg4 (by decide)
    _ = m ((c : Thread nD τ).loc main_arg4) := (W1_arr m c 4).trans (((dat0 (V0 m) c).arrAt_in 4 rfl _).trans (A_eq0 (V0 m) c 4))

theorem W3_main_arg5 (c : Dev nD) : W3 m c (Proc.devRef .tc main_arg5) = m ((c : Thread nD τ).loc main_arg5) :=
  calc W3 m c (Proc.devRef .tc main_arg5)
    _ = W2 m c (Proc.devRef .tc main_arg5) := StableHlo.after_of_writes_sub hostOps2 _ hostOps2_writes (by decide)
    _ = W1 m c (Proc.devRef .tc main_arg5) := W2_of_ne m c main_arg5 (by decide)
    _ = m ((c : Thread nD τ).loc main_arg5) := (W1_arr m c 5).trans (((dat0 (V0 m) c).arrAt_in 5 rfl _).trans (A_eq0 (V0 m) c 5))

/-! ## The proof data family and the thread state -/

/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The launches as segments -/

set_option backward.isDefEq.respectTransparency.types false in
/-- The embedding launch: entered from the buffers as launched, left at the first boundary. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The angle-loss launch: entered from the first boundary, left at the second. Each embedding table is read through
    two windows, each holding half of the table's share inside the launch. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := arrays1_of_unscopedBufs (pdats m 1 c) rfl rfl rfl rfl (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (pdats m 1 c) rfl rfl rfl rfl (V1 m c) (V2 m c) (fun _ => rfl)
      (W2_main_v1 m c) (fun b hb => W2_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .region (reg0 m), .region (reg1 m), .host (hseg hostOps2 hostOps2_sub hostOps2_fresh (W2 m)) ]

theorem main_run (c : Dev nD) : main (F := F) c = Pipeline.Seg.run (segs m) := (main_chain c).trans (by chain_rfl)

set_option backward.isDefEq.respectTransparency.types false in
/-- Every weakly fair execution of the program from memory m ends, nothing faulting, with every unscoped buffer of
    every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => (show iprop(StableHlo.held (c : Thread nD τ) (Pipeline.ucRefs τ sig) (W3 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun _ h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m c), (h c _ (mem_uc main_arg1 (by decide))).trans (W3_main_arg1 m c),
     (h c _ (mem_uc main_arg2 (by decide))).trans (W3_main_arg2 m c), (h c _ (mem_uc main_arg3 (by decide))).trans (W3_main_arg3 m c),
     (h c _ (mem_uc main_arg4 (by decide))).trans (W3_main_arg4 m c), (h c _ (mem_uc main_arg5 (by decide))).trans (W3_main_arg5 m c)⟩)
    (run_main m ρ)

/-- The run with the result named: the scalar result ends at the last boundary's contents, the arguments as launched. -/
theorem run_result : θ_run defs (onTc (τ := τ) (main (F := F))) ⟨m, fun _ => 0, ρ⟩ (fun r => ∀ c : Dev nD,
      r.2.mem ((c.tc : Thread nD τ).loc main_v2) = W3 m c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v2 (by decide)),
     (h c _ (mem_uc main_arg0 (by decide))).trans (W3_main_arg0 m c), (h c _ (mem_uc main_arg1 (by decide))).trans (W3_main_arg1 m c),
     (h c _ (mem_uc main_arg2 (by decide))).trans (W3_main_arg2 m c), (h c _ (mem_uc main_arg3 (by decide))).trans (W3_main_arg3 m c),
     (h c _ (mem_uc main_arg4 (by decide))).trans (W3_main_arg4 m c), (h c _ (mem_uc main_arg5 (by decide))).trans (W3_main_arg5 m c)⟩)
    (run_main m ρ)

end Cert.Kernel.Hand

end
-- ==== Proof.EmbedBody.lean ====
/-
  The first launch: the two embeddings. One grid point; the body loads the six operand blocks whole (student, W1, b1,
  teacher, W2, b2), forms  student · W1 + b1  and  teacher · W2 + b2  (a 512×512 by 512×128 product onto a zero
  accumulator, the bias row broadcast down the rows) and stores each whole into its result block. Stated at a
  parameter V, the contents of the core's buffers when the launch is entered.
-/
import proofs.«132771_j86723979641277_1_alg».proof.Proof.Gen.KernelIdeal.Launch
import proofs.«132771_j86723979641277_1_alg».proof.Proof.Gen.KernelIdeal.Skeleton
import proofs.«132771_j86723979641277_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The operand blocks -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand window 0's staging buffer holds its block when the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Operand window 1's staging buffer holds its block when the body runs. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Operand window 2's staging buffer holds its block when the body runs. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Operand window 3's staging buffer holds its block when the body runs. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Operand window 4's staging buffer holds its block when the body runs. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Operand window 5's staging buffer holds its block when the body runs. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX : Rect S512x512 := Rect.unit (s := S512x512) ![0, 0] S512x512.size inb_S512x512_S512x512_0_0
abbrev rW : Rect S512x128 := Rect.unit (s := S512x128) ![0, 0] S512x128.size inb_S512x128_S512x128_0_0
abbrev rB : Rect S128 := Rect.unit (s := S128) ![0] S128.size inb_S128_S128_0

/-! ## What the body leaves in the two result blocks -/

/-- The student embedding's block after the body: one whole store of  x · w + b. -/
def embOut (x : Vec F S512x512 .f32) (w : Vec F S512x128 .f32) (b : Vec F S128 .f32) : Vec F S512x128 .f32 :=
  View.canon [⟨rW, k0_pay1 (View.ld x rX) (View.ld w rW) (View.ld b rB)⟩]

/-- The teacher embedding's block after the body. -/
def embOut' (x : Vec F S512x512 .f32) (w : Vec F S512x128 .f32) (b : Vec F S128 .f32) : Vec F S512x128 .f32 :=
  View.canon [⟨rW, k0_pay2 (View.ld x rX) (View.ld w rW) (View.ld b rB)⟩]

theorem cover_rW (p0 : Vec F S512x128 .f32) (y : S512x128.Idx) :
    ∃ pc ∈ ([⟨rW, p0⟩] : List (View.Piece (Elt F) S512x128 .f32)), y ∈ pc.1.set :=
  View.cover_of_tiled [⟨rW, p0⟩] S512x128.size (by rfl) y

/-! ## The body's triple -/

set_option maxHeartbeats 2000000 in
/-- The body on whole staging memrefs: the six operands' at their contents and the two results' at anything, to the
    operands' as they were and each result's at its embedding. -/
theorem sound_kernel0 (c : Dev nD) (E : Set ℕ) (i : grid0.Coords)
    (a1 : Memref sig .tc .vmem S512x512 .f32) (h1 : a1.IsWhole) (a2 : Memref sig .tc .vmem S512x128 .f32) (h2 : a2.IsWhole)
    (a3 : Memref sig .tc .vmem S128 .f32) (h3 : a3.IsWhole) (a4 : Memref sig .tc .vmem S512x512 .f32) (h4 : a4.IsWhole)
    (a5 : Memref sig .tc .vmem S512x128 .f32) (h5 : a5.IsWhole) (a6 : Memref sig .tc .vmem S128 .f32) (h6 : a6.IsWhole)
    (a7 : Memref sig .tc .vmem S512x128 .f32) (h7 : a7.IsWhole) (a8 : Memref sig .tc .vmem S512x128 .f32) (h8 : a8.IsWhole)
    (x0 : Vec F S512x512 .f32) (x1 : Vec F S512x128 .f32) (x2 : Vec F S128 .f32)
    (x3 : Vec F S512x512 .f32) (x4 : Vec F S512x128 .f32) (x5 : Vec F S128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d) ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (embOut x0 x1 x2) ∗ owns (c : Thread nD τ) a8 fullShare (embOut' x3 x4 x5)) -∗ K ⟨⟩))
      ⊢ wp frame (wpE (defs₀ (F := F)) Variants.none c none) E (cc0__embed_kernel i a1 h1 a2 h2 a3 h3 a4 h4 a5 h5 a6 h6 a7 h7 a8 h8) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rW _)
  iexists _; isplitr
  swap; · iexact H7
  ipureintro
  exact View.read_writes_eq_canon _ _ _ (cover_rW _)

/-! ## The launch's proof data -/

/-- After the body each operand's buffer holds its block and each result's its embedding of the operand blocks;
    nothing is kept between points, nothing owed, every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => embOut (iblk0 V c 0 t) (iblk0 V c 1 t) (iblk0 V c 2 t)
    | ⟨7, _⟩ => embOut' (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = embOut (iblk0 V c 0 t) (iblk0 V c 1 t) (iblk0 V c 2 t) := by dsimp only [dat0]
theorem after0_7 (c : Dev nD) (t : Fin cfg0.N) : (dat0 V c).after 7 t = embOut' (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AngleRuns.lean ====
/-
  The second launch's body, run whole, in each of the three ways its two branches fall over the 64 grid points:
  at the first point the running sum is reset to zero before the point's partial sum is added; at the points between
  the partial sum is added to what the point before left; at the last point it is added and the total divided by 512³.
  Each run leaves the result block's final contents as the list of the stores it made.
-/
import proofs.«132771_j86723979641277_1_alg».proof.Proof.Gen.KernelIdeal.Launch
import proofs.«132771_j86723979641277_1_alg».proof.Proof.Gen.KernelIdeal.Skeleton
import proofs.«132771_j86723979641277_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinate -/

/-- "this is the first point" as the body computes it. -/
abbrev cond1_0 (i : grid1.Coords) : Prop := (Scalar.cmpi .ne (Scalar.extui (Scalar.cmpi .eq (BitVec.ofNat 32 (i 0).val) 0#32)) 0#32) = 1#1
/-- "this is the last point" as the body computes it. -/
abbrev cond1_1 (i : grid1.Coords) : Prop := (Scalar.cmpi .ne (Scalar.extui (Scalar.cmpi .eq (BitVec.ofNat 32 (i 0).val) 63#32)) 0#32) = 1#1

theorem hcond1_0 : ∀ t : Fin cfg1.N, cond1_0 (grid1.coords t) ↔ t.val % 64 = 0 :=
  (by decide +kernel : ∀ t : Fin grid1.N, cond1_0 (grid1.coords t) ↔ t.val % 64 = 0)
theorem hcond1_1 : ∀ t : Fin cfg1.N, cond1_1 (grid1.coords t) ↔ t.val % 64 = 63 :=
  (by decide +kernel : ∀ t : Fin grid1.N, cond1_1 (grid1.coords t) ↔ t.val % 64 = 63)

/-! ## The three runs -/

set_option maxHeartbeats 4000000 in
noncomputable def runFirst (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : cond1_0 i) (hc1 : ¬cond1_1 i)
    (x0 : Vec F S512x128 .f32) (x1 : Vec F S8x128 .f32) (x2 : Vec F S512x128 .f32) (x3 : Vec F S8x128 .f32) :
    { L : List (View.Piece (Elt F) S1x1 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d)
            ∗ (iprop(owns (c : Thread nD τ) a1 fullShare x0 ∗ owns (c : Thread nD τ) a2 fullShare x1 ∗ owns (c : Thread nD τ) a3 fullShare x2 ∗ owns (c : Thread nD τ) a4 fullShare x3
                ∗ (∃ f, a5.view.loc (c : Thread nD τ) ↦[a5.view.set]{fullShare} a5.view.writes (Elt F) f L)) -∗ K ⟨⟩))
          ⊢ wp frame (wpE (defs₀ (F := F)) Variants.none c none) E (cc1__angle_loss_kernel i a1 h1 a2 h2 a3 h3 a4 h4 a5 h5) K } := by
  refine ⟨?_, fun E K => ?run⟩
  case run =>
    haveI : Fact (cond1_0 i) := ⟨hc0⟩
    haveI : Fact (¬cond1_1 i) := ⟨hc1⟩
    simp only [cc1__angle_loss_kernel_eq_skeleton]; unfold cc1__angle_loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h1.eq_unread hf0; obtain rfl := h2.eq_unread hf1; obtain rfl := h3.eq_unread hf2; obtain rfl := h4.eq_unread hf3
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact H4

set_option maxHeartbeats 4000000 in
noncomputable def runMid (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : ¬cond1_1 i)
    (x0 : Vec F S512x128 .f32) (x1 : Vec F S8x128 .f32) (x2 : Vec F S512x128 .f32) (x3 : Vec F S8x128 .f32) (xo : Vec F S1x1 .f32) :
    { L : List (View.Piece (Elt F) S1x1 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare xo
            ∗ (iprop(owns (c : Thread nD τ) a1 fullShare x0 ∗ owns (c : Thread nD τ) a2 fullShare x1 ∗ owns (c : Thread nD τ) a3 fullShare x2 ∗ owns (c : Thread nD τ) a4 fullShare x3
                ∗ (∃ f, a5.view.loc (c : Thread nD τ) ↦[a5.view.set]{fullShare} a5.view.writes (Elt F) f L)) -∗ K ⟨⟩))
          ⊢ wp frame (wpE (defs₀ (F := F)) Variants.none c none) E (cc1__angle_loss_kernel i a1 h1 a2 h2 a3 h3 a4 h4 a5 h5) K } := by
  refine ⟨?_, fun E K => ?run⟩
  case run =>
    haveI : Fact (¬cond1_0 i) := ⟨hc0⟩
    haveI : Fact (¬cond1_1 i) := ⟨hc1⟩
    simp only [cc1__angle_loss_kernel_eq_skeleton]; unfold cc1__angle_loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h1.eq_unread hf0; obtain rfl := h2.eq_unread hf1; obtain rfl := h3.eq_unread hf2; obtain rfl := h4.eq_unread hf3; obtain rfl := h5.eq_unread hf4
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact H4

set_option maxHeartbeats 4000000 in
noncomputable def runLast (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : cond1_1 i)
    (x0 : Vec F S512x128 .f32) (x1 : Vec F S8x128 .f32) (x2 : Vec F S512x128 .f32) (x3 : Vec F S8x128 .f32) (xo : Vec F S1x1 .f32) :
    { L : List (View.Piece (Elt F) S1x1 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare xo
            ∗ (iprop(owns (c : Thread nD τ) a1 fullShare x0 ∗ owns (c : Thread nD τ) a2 fullShare x1 ∗ owns (c : Thread nD τ) a3 fullShare x2 ∗ owns (c : Thread nD τ) a4 fullShare x3
                ∗ (∃ f, a5.view.loc (c : Thread nD τ) ↦[a5.view.set]{fullShare} a5.view.writes (Elt F) f L)) -∗ K ⟨⟩))
          ⊢ wp frame (wpE (defs₀ (F := F)) Variants.none c none) E (cc1__angle_loss_kernel i a1 h1 a2 h2 a3 h3 a4 h4 a5 h5) K } := by
  refine ⟨?_, fun E K => ?run⟩
  case run =>
    haveI : Fact (¬cond1_0 i) := ⟨hc0⟩
    haveI : Fact (cond1_1 i) := ⟨hc1⟩
    simp only [cc1__angle_loss_kernel_eq_skeleton]; unfold cc1__angle_loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h1.eq_unread hf0; obtain rfl := h2.eq_unread hf1; obtain rfl := h3.eq_unread hf2; obtain rfl := h4.eq_unread hf3; obtain rfl := h5.eq_unread hf4
    sl_exec (disch := first | exact hc0 | exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    iexists _; iexact H4

end Cert.KernelIdeal.Hand

end
-- ==== Proof.AngleBody.lean ====
/-
  The second launch: the angle loss over 64 grid points of 8 centre rows each. Two operand windows hold the whole
  embedding tables (fetched once), two hold the point's 8 centre rows (fetched at every point); the one result block,
  a single number, stays in its staging buffer from point to point and is written back after the last. What it holds
  after each point is defined by recursion on the point from the three whole-body runs. Stated at a parameter V,
  the contents of the core's buffers when the launch is entered.
-/
import proofs.«132771_j86723979641277_1_alg».proof.Proof.Gen.KernelIdeal.Launch
import proofs.«132771_j86723979641277_1_alg».proof.Proof.Gen.KernelIdeal.Skeleton
import proofs.«132771_j86723979641277_1_alg».proof.Proof.Gen.KernelIdeal.Points
import proofs.«132771_j86723979641277_1_alg».proof.Proof.AngleRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The operand blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Operand window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Operand window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Operand window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs at a point -/

abbrev VO : View sig .tc .vmem S1x1 .f32 := (Memref.whole cc1_stg4_0 : Memref sig .tc .vmem S1x1 .f32).view
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-! ## What each run leaves in the result block -/

theorem coverFirst (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : cond1_0 i) (hc1 : ¬cond1_1 i) (x0 : Vec F S512x128 .f32) (x1 : Vec F S8x128 .f32) (x2 : Vec F S512x128 .f32) (x3 : Vec F S8x128 .f32) (y : S1x1.Idx) :
    ∃ pc ∈ (runFirst c i a1 h1 a2 h2 a3 h3 a4 h4 a5 h5 hc0 hc1 x0 x1 x2 x3).1, y ∈ pc.1.set :=
  View.cover_of_tiledL (runFirst c i a1 h1 a2 h2 a3 h3 a4 h4 a5 h5 hc0 hc1 x0 x1 x2 x3).1 S1x1.size (by sl_kernel_rfl) y

def outFirst (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : cond1_0 i) (hc1 : ¬cond1_1 i) (x0 : Vec F S512x128 .f32) (x1 : Vec F S8x128 .f32) (x2 : Vec F S512x128 .f32) (x3 : Vec F S8x128 .f32) : Vec F S1x1 .f32 :=
  VO.read (Elt F) (VO.writes (Elt F) VO.junk (runFirst c i a1 h1 a2 h2 a3 h3 a4 h4 a5 h5 hc0 hc1 x0 x1 x2 x3).1)

theorem coverMid (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : ¬cond1_1 i) (x0 : Vec F S512x128 .f32) (x1 : Vec F S8x128 .f32) (x2 : Vec F S512x128 .f32) (x3 : Vec F S8x128 .f32) (xo : Vec F S1x1 .f32) (y : S1x1.Idx) :
    ∃ pc ∈ (runMid c i a1 h1 a2 h2 a3 h3 a4 h4 a5 h5 hc0 hc1 x0 x1 x2 x3 xo).1, y ∈ pc.1.set :=
  View.cover_of_tiledL (runMid c i a1 h1 a2 h2 a3 h3 a4 h4 a5 h5 hc0 hc1 x0 x1 x2 x3 xo).1 S1x1.size (by sl_kernel_rfl) y

def outMid (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : ¬cond1_1 i) (x0 : Vec F S512x128 .f32) (x1 : Vec F S8x128 .f32) (x2 : Vec F S512x128 .f32) (x3 : Vec F S8x128 .f32) (xo : Vec F S1x1 .f32) : Vec F S1x1 .f32 :=
  VO.read (Elt F) (VO.writes (Elt F) VO.junk (runMid c i a1 h1 a2 h2 a3 h3 a4 h4 a5 h5 hc0 hc1 x0 x1 x2 x3 xo).1)

theorem coverLast (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : cond1_1 i) (x0 : Vec F S512x128 .f32) (x1 : Vec F S8x128 .f32) (x2 : Vec F S512x128 .f32) (x3 : Vec F S8x128 .f32) (xo : Vec F S1x1 .f32) (y : S1x1.Idx) :
    ∃ pc ∈ (runLast c i a1 h1 a2 h2 a3 h3 a4 h4 a5 h5 hc0 hc1 x0 x1 x2 x3 xo).1, y ∈ pc.1.set :=
  View.cover_of_tiledL (runLast c i a1 h1 a2 h2 a3 h3 a4 h4 a5 h5 hc0 hc1 x0 x1 x2 x3 xo).1 S1x1.size (by sl_kernel_rfl) y

def outLast (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : cond1_1 i) (x0 : Vec F S512x128 .f32) (x1 : Vec F S8x128 .f32) (x2 : Vec F S512x128 .f32) (x3 : Vec F S8x128 .f32) (xo : Vec F S1x1 .f32) : Vec F S1x1 .f32 :=
  VO.read (Elt F) (VO.writes (Elt F) VO.junk (runLast c i a1 h1 a2 h2 a3 h3 a4 h4 a5 h5 hc0 hc1 x0 x1 x2 x3 xo).1)

/-! ## The running sum, point by point -/

theorem lt64 {n : ℕ} (hn : n < cfg1.N) : n < 64 := lt_of_lt_of_eq hn (show cfg1.N = 64 from N_1)

/-- What the result block's staging buffer holds after the body at position n: the first run at position 0; afterwards
    the middle run, or at position 63 the last run, over what position n − 1 left. -/
def accAt (c : Dev nD) : (n : ℕ) → n < cfg1.N → Vec F S1x1 .f32
  | 0, hn => outFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _))
      (fun h => by have h' := (hcond1_1 ⟨0, hn⟩).mp h; dsimp only at h'; omega) (iblk1 V c 0 ⟨0, hn⟩) (iblk1 V c 1 ⟨0, hn⟩) (iblk1 V c 2 ⟨0, hn⟩) (iblk1 V c 3 ⟨0, hn⟩)
  | n + 1, hn =>
    if h63 : (n + 1) % 64 = 63 then
      outLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => by have h' := (hcond1_0 ⟨n + 1, hn⟩).mp h; have := lt64 hn; dsimp only at h'; omega)
        ((hcond1_1 ⟨n + 1, hn⟩).mpr h63) (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn))
    else
      outMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => by have h' := (hcond1_0 ⟨n + 1, hn⟩).mp h; have := lt64 hn; dsimp only at h'; omega)
        (fun h => h63 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn))

theorem accAt_first (c : Dev nD) (t : Fin cfg1.N) (h0 : t.val % 64 = 0) (hc1 : ¬cond1_1 (grid1.coords t)) :
    accAt V c t.val t.isLt = outFirst c (grid1.coords t) (ms1_0 t) (hs1_0 t) (ms1_1 t) (hs1_1 t) (ms1_2 t) (hs1_2 t) (ms1_3 t) (hs1_3 t) (ms1_4 t) (hs1_4 t) ((hcond1_0 t).mpr h0) hc1 (iblk1 V c 0 t) (iblk1 V c 1 t) (iblk1 V c 2 t) (iblk1 V c 3 t) := by
  obtain ⟨n, hn⟩ := t
  have := lt64 hn
  cases n with
  | zero => exact rfl
  | succ n => exact (by exfalso; dsimp only at h0; omega)

theorem accAt_mid (c : Dev nD) (t : Fin cfg1.N) (hc0 : ¬cond1_0 (grid1.coords t)) (h63 : ¬t.val % 64 = 63) :
    accAt V c t.val t.isLt = outMid c (grid1.coords t) (ms1_0 t) (hs1_0 t) (ms1_1 t) (hs1_1 t) (ms1_2 t) (hs1_2 t) (ms1_3 t) (hs1_3 t) (ms1_4 t) (hs1_4 t) hc0 (fun h => h63 ((hcond1_1 t).mp h)) (iblk1 V c 0 t) (iblk1 V c 1 t) (iblk1 V c 2 t) (iblk1 V c 3 t)
      (accAt V c (t.val - 1) (Nat.lt_of_le_of_lt (Nat.sub_le _ _) t.isLt)) := by
  obtain ⟨n, hn⟩ := t
  cases n with
  | zero => exact (by exfalso; exact hc0 ((hcond1_0 ⟨0, hn⟩).mpr (Nat.zero_mod _)))
  | succ n => exact (dif_neg h63).trans rfl

theorem accAt_last (c : Dev nD) (t : Fin cfg1.N) (hc0 : ¬cond1_0 (grid1.coords t)) (h63 : t.val % 64 = 63) :
    accAt V c t.val t.isLt = outLast c (grid1.coords t) (ms1_0 t) (hs1_0 t) (ms1_1 t) (hs1_1 t) (ms1_2 t) (hs1_2 t) (ms1_3 t) (hs1_3 t) (ms1_4 t) (hs1_4 t) hc0 ((hcond1_1 t).mpr h63) (iblk1 V c 0 t) (iblk1 V c 1 t) (iblk1 V c 2 t) (iblk1 V c 3 t)
      (accAt V c (t.val - 1) (Nat.lt_of_le_of_lt (Nat.sub_le _ _) t.isLt)) := by
  obtain ⟨n, hn⟩ := t
  cases n with
  | zero => exact (by exfalso; dsimp only at h63; omega)
  | succ n => exact (dif_pos h63).trans rfl

/-! ## The launch's proof data -/

/-- After the body each operand's buffer holds its block and the result's the running sum; the two windows on one
    embedding table hold the two halves of its share; nothing is kept between points besides, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accAt V c t.val t.isLt
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- After the first point the result's staging buffer holds what the point before left: it is written back only
    after the last point. -/
theorem before1_4_pos (c : Dev nD) (t : Fin cfg1.N) (h0 : ¬t.val % 64 = 0) (d) :
    (dat1 V c).before 4 t d = accAt V c (t.val - 1) (Nat.lt_of_le_of_lt (Nat.sub_le _ _) t.isLt) := by
  have hN : t.val < 64 := lt64 t.isLt
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 64 := lt64 t.isLt
  by_cases h0 : t.val % 64 = 0
  · have hc1 : ¬cond1_1 (grid1.coords t) := fun h => by have := (hcond1_1 t).mp h; omega
    rw [accAt_first V c t h0 hc1]
    unfold outFirst
    iintro ⟨HΦ, Ho, ⟨%d0, H0⟩, ⟨%d1, H1⟩, ⟨%d2, H2⟩, ⟨%d3, H3⟩, ⟨%d4, H4⟩⟩
    iapply ((runFirst c (grid1.coords t) _ _ _ _ _ _ _ _ _ _ ((hcond1_0 t).mpr h0) hc1 (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _ _)
  · have hc0 : ¬cond1_0 (grid1.coords t) := fun h => h0 ((hcond1_0 t).mp h)
    by_cases h63 : t.val % 64 = 63
    · rw [accAt_last V c t hc0 h63]
      simp only [before1_4_pos V c t h0]
      unfold outLast
      iintro ⟨HΦ, Ho, ⟨%d0, H0⟩, ⟨%d1, H1⟩, ⟨%d2, H2⟩, ⟨%d3, H3⟩, ⟨%d4, H4⟩⟩
      iapply ((runLast c (grid1.coords t) _ _ _ _ _ _ _ _ _ _ hc0 ((hcond1_1 t).mpr h63) (iblk1 V c 0 t) (iblk1 V c 1 t) (iblk1 V c 2 t) (iblk1 V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast c _ _ _ _ _ _ _ _ _ _ _ _ _ _ _ _ _ _)
    · rw [accAt_mid V c t hc0 h63]
      simp only [before1_4_pos V c t h0]
      unfold outMid
      iintro ⟨HΦ, Ho, ⟨%d0, H0⟩, ⟨%d1, H1⟩, ⟨%d2, H2⟩, ⟨%d3, H3⟩, ⟨%d4, H4⟩⟩
      iapply ((runMid c (grid1.coords t) _ _ _ _ _ _ _ _ _ _ hc0 (fun h => h63 ((hcond1_1 t).mp h)) (iblk1 V c 0 t) (iblk1 V c 1 t) (iblk1 V c 2 t) (iblk1 V c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverMid c _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.SharedTables.lean ====
/-
  The second launch reads each embedding table through two windows (the whole table, and the point's 8 centre rows).
  The table's buffer is held whole outside the launch; inside, each of the two windows holds one half of its share.
  Here: the launch's five arrays spelt out buffer by buffer, split out of the core's buffers on the way in and joined
  back on the way out, where the two halves of a table hold the same contents again (an operand is never written).
-/
import proofs.«132771_j86723979641277_1_alg».proof.Proof.Gen.KernelIdeal.Launch
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable {c : Dev nD} (dat : Dat τ (Elt F) Unit ℕ (UR sig nD τ) ℕ cfg1 c)

/-- The five arrays, buffer by buffer: each table's two windows at the two halves of its share, the result whole. -/
theorem arrays1_eq (hq0 : dat.q 0 = fullShare.left) (hq1 : dat.q 1 = fullShare.right) (hq2 : dat.q 2 = fullShare.left) (hq3 : dat.q 3 = fullShare.right)
    (Fs : (w : Fin cfg1.W) → Buf (Elt F) ((cfg1.win w).arr.view.loc (c : Thread nD τ))) :
    (dat.arrays Fs : sProp 𝕄) = iprop((((c : Thread nD τ).loc main_v0_0) ↦{fullShare.left} Fs 0) ∗ (((c : Thread nD τ).loc main_v0_0) ↦{fullShare.right} Fs 1)
      ∗ (((c : Thread nD τ).loc main_v0_1) ↦{fullShare.left} Fs 2) ∗ (((c : Thread nD τ).loc main_v0_1) ↦{fullShare.right} Fs 3)
      ∗ (((c : Thread nD τ).loc main_v1) ↦{fullShare} Fs 4)) := by
  unfold Dat.arrays
  rw [bigSep_W1]
  simp only [(arr_whole1 0).set_eq_univ, (arr_whole1 1).set_eq_univ, (arr_whole1 2).set_eq_univ, (arr_whole1 3).set_eq_univ, (arr_whole1 4).set_eq_univ,
    show dat.share 0 = fullShare.left from hq0, show dat.share 1 = fullShare.right from hq1, show dat.share 2 = fullShare.left from hq2,
    show dat.share 3 = fullShare.right from hq3, show dat.share 4 = fullShare from rfl]

/-- The three buffers behind the five arrays, each whole. -/
theorem arrBufs1_eq (V : (b : Ref sig .tc) → Buf (Elt F) ((c : Thread nD τ).loc b)) :
    (Pipeline.arrBufs spec1 c V : sProp 𝕄) = iprop((((c : Thread nD τ).loc main_v0_0) ↦{fullShare} V main_v0_0)
      ∗ (((c : Thread nD τ).loc main_v0_1) ↦{fullShare} V main_v0_1) ∗ (((c : Thread nD τ).loc main_v1) ↦{fullShare} V main_v1)) := by
  unfold Pipeline.arrBufs
  rw [show Finset.univ.image (Pipeline.arrRef spec1) = {main_v0_0, main_v0_1, main_v1} from by decide]
  rw [BI.bigSep_insert (by decide), BI.bigSep_insert (by decide), BI.bigSep_singleton]
  rfl

/-- ON THE WAY IN: the core's buffers at contents V give the launch its five arrays at their entry contents — each
    table's whole share cut in two for its two windows — beside the buffers the launch does not touch. -/
theorem arrays1_of_unscopedBufs (hq0 : dat.q 0 = fullShare.left) (hq1 : dat.q 1 = fullShare.right) (hq2 : dat.q 2 = fullShare.left) (hq3 : dat.q 3 = fullShare.right)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  rw [show (unscopedBufs c V : sProp 𝕄) = iprop(Pipeline.arrBufs spec1 c V ∗ Pipeline.unscopedRest spec1 c V) from
      Pipeline.unscopedBufs_split₀ cfgs (1 : Fin 2) winFacts₀1.arr_unscoped c V, arrBufs1_eq, arrays1_eq dat hq0 hq1 hq2 hq3]
  rw [show dat.arrAt 0 0 = V main_v0_0 from hA 0, show dat.arrAt 1 0 = V main_v0_0 from hA 1, show dat.arrAt 2 0 = V main_v0_1 from hA 2,
    show dat.arrAt 3 0 = V main_v0_1 from hA 3, show dat.arrAt 4 0 = V main_v1 from hA 4]
  iintro ⟨⟨H0, H1, H2⟩, Hr⟩
  ihave H0' := (pointsTo_share (PosShare.mem_left_op_right fullShare)).1 $$ H0
  icases H0' with ⟨H0a, H0b⟩
  ihave H1' := (pointsTo_share (PosShare.mem_left_op_right fullShare)).1 $$ H1
  icases H1' with ⟨H1a, H1b⟩
  isplitr [Hr]
  · isplitl [H0a]; · iexact H0a
    isplitl [H0b]; · iexact H0b
    isplitl [H1a]; · iexact H1a
    isplitl [H1b]; · iexact H1b
    iexact H2
  iexact Hr

/-- ON THE WAY OUT: the five arrays at their final contents and the untouched buffers are the core's buffers at any
    contents V' that agree with V except at the result, where they hold what the launch wrote: the two halves of a
    table are joined again, both at the table's entry contents. -/
theorem unscopedBufs_of_arrays1 (hq0 : dat.q 0 = fullShare.left) (hq1 : dat.q 1 = fullShare.right) (hq2 : dat.q 2 = fullShare.left) (hq3 : dat.q 3 = fullShare.right)
    (V V' : (b : Ref sig .tc) → Buf (Elt F) ((c : Thread nD τ).loc b)) (hA : ∀ w, dat.A w = V (Pipeline.arrRef spec1 w))
    (h1 : V' main_v1 = dat.arrAt 4 cfg1.N) (hrest : ∀ b, b ≠ main_v1 → V' b = V b) :
    iprop(dat.arrays (dat.arrAt · cfg1.N) ∗ Pipeline.unscopedRest spec1 c V) ⊢ (unscopedBufs c V' : sProp 𝕄) := by
  rw [show (unscopedBufs c V' : sProp 𝕄) = iprop(Pipeline.arrBufs spec1 c V' ∗ Pipeline.unscopedRest spec1 c V') from
      Pipeline.unscopedBufs_split₀ cfgs (1 : Fin 2) winFacts₀1.arr_unscoped c V', arrBufs1_eq, arrays1_eq dat hq0 hq1 hq2 hq3]
  rw [show dat.arrAt 0 cfg1.N = V' main_v0_0 from ((dat.arrAt_in 0 rfl _).trans (hA 0)).trans (hrest main_v0_0 (by decide)).symm,
    show dat.arrAt 1 cfg1.N = V' main_v0_0 from ((dat.arrAt_in 1 rfl _).trans (hA 1)).trans (hrest main_v0_0 (by decide)).symm,
    show dat.arrAt 2 cfg1.N = V' main_v0_1 from ((dat.arrAt_in 2 rfl _).trans (hA 2)).trans (hrest main_v0_1 (by decide)).symm,
    show dat.arrAt 3 cfg1.N = V' main_v0_1 from ((dat.arrAt_in 3 rfl _).trans (hA 3)).trans (hrest main_v0_1 (by decide)).symm,
    show dat.arrAt 4 cfg1.N = V' main_v1 from h1.symm]
  have hr : (Pipeline.unscopedRest spec1 c V : sProp 𝕄) = Pipeline.unscopedRest spec1 c V' := by
    unfold Pipeline.unscopedRest
    refine bigSep_congr fun b hb => ?_
    rw [hrest b (fun e => (Finset.mem_sdiff.mp hb).2 (Finset.mem_image.mpr ⟨4, Finset.mem_univ _, e ▸ rfl⟩))]
  rw [hr]
  iintro ⟨⟨H0a, H0b, H1a, H1b, H2⟩, Hr⟩
  isplitr [Hr]
  · isplitl [H0a H0b]
    · iapply (pointsTo_share (PosShare.mem_left_op_right fullShare)).2
      isplitl [H0a]; · iexact H0a
      iexact H0b
    isplitl [H1a H1b]
    · iapply (pointsTo_share (PosShare.mem_left_op_right fullShare)).2
      isplitl [H1a]; · iexact H1a
      iexact H1b
    iexact H2
  iexact Hr

end Cert.KernelIdeal.Hand

end
-- ==== Proof.Program.lean ====
/-
  The whole program on a core: the embedding launch, the angle-loss launch, and the host's reshape of the 1×1 result
  to a scalar. The contents of the core's unscoped buffers are followed boundary by boundary: as launched; after the
  first launch (its two result tables at what its write-backs leave); after the second (its result block likewise);
  after the reshape. Each launch is entered from the buffers at one boundary and left at the next; the run reads the
  last boundary off the final memory. Every argument array is carried through unchanged.
-/
import proofs.«132771_j86723979641277_1_alg».proof.Proof.Gen.KernelIdeal.Launch
import proofs.«132771_j86723979641277_1_alg».proof.Proof.Gen.KernelIdeal.Skeleton
import proofs.«132771_j86723979641277_1_alg».proof.Proof.Gen.KernelIdeal.Points
import proofs.«132771_j86723979641277_1_alg».proof.Proof.Gen.KernelIdeal.Regions
import proofs.«132771_j86723979641277_1_alg».proof.Proof.EmbedBody
import proofs.«132771_j86723979641277_1_alg».proof.Proof.AngleBody
import proofs.«132771_j86723979641277_1_alg».proof.Proof.SharedTables
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the four boundaries -/

/-- As launched. -/
abbrev W0 : Dev nD → Valuation τ sig (Elt F) := fun c b => m (c, b)
abbrev V0 : (c : Dev nD) → (b : Ref sig .tc) → Buf (Elt F) ((c : Thread nD τ).loc b) := fun c b => W0 m c b

/-- After the embedding launch: its arrays at what the pipeline leaves, the rest as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the angle-loss launch: its result block at what the pipeline leaves, everything else as entered. -/
def W2 (c : Dev nD) : Valuation τ sig (Elt F) :=
  Function.update (W1 m c) (Proc.devRef .tc main_v1) ((dat1 (V1 m) c).arrAt 4 cfg1.N)
theorem W2_main_v1 (c : Dev nD) : W2 m c (Proc.devRef .tc main_v1) = (dat1 (V1 m) c).arrAt 4 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..
abbrev V2 : (c : Dev nD) → (b : Ref sig .tc) → Buf (Elt F) ((c : Thread nD τ).loc b) := fun c b => W2 m c b

/-- After the reshape. -/
abbrev W3 : Dev nD → Valuation τ sig (Elt F) := fun c => StableHlo.after hostOps2 (W2 m c)

/-! ## The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := W2_of_ne m c main_arg0 (by decide)
    _ = m ((c : Thread nD τ).loc main_arg0) := (W1_arr m c 0).trans (((dat0 (V0 m) c).arrAt_in 0 rfl _).trans (A_eq0 (V0 m) c 0))

theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    _ = W1 m c (Proc.devRef .tc main_arg1) := W2_of_ne m c main_arg1 (by decide)
    _ = m ((c : Thread nD τ).loc main_arg1) := (W1_arr m c 3).trans (((dat0 (V0 m) c).arrAt_in 3 rfl _).trans (A_eq0 (V0 m) c 3))

theorem W3_main_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_writes_sub hostOps2 _ hostOps2_writes (by decide)
    _ = W1 m c (Proc.devRef .tc main_arg2) := W2_of_ne m c main_arg2 (by decide)
    _ = m ((c : Thread nD τ).loc main_arg2) := (W1_arr m c 1).trans (((dat0 (V0 m) c).arrAt_in 1 rfl _).trans (A_eq0 (V0 m) c 1))

theorem W3_main_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_writes_sub hostOps2 _ hostOps2_writes (by decide)
    _ = W1 m c (Proc.devRef .tc main_arg3) := W2_of_ne m c main_arg3 (by decide)
    _ = m ((c : Thread nD τ).loc main_arg3) := (W1_arr m c 2).trans (((dat0 (V0 m) c).arrAt_in 2 rfl _).trans (A_eq0 (V0 m) c 2))

theorem W3_main_arg4 (c : Dev nD) : W3 m c (Proc.devRef .tc main_arg4) = m ((c : Thread nD τ).loc main_arg4) :=
  calc W3 m c (Proc.devRef .tc main_arg4)
    _ = W2 m c (Proc.devRef .tc main_arg4) := StableHlo.after_of_writes_sub hostOps2 _ hostOps2_writes (by decide)
    _ = W1 m c (Proc.devRef .tc main_arg4) := W2_of_ne m c main_arg4 (by decide)
    _ = m ((c : Thread nD τ).loc main_arg4) := (W1_arr m c 4).trans (((dat0 (V0 m) c).arrAt_in 4 rfl _).trans (A_eq0 (V0 m) c 4))

theorem W3_main_arg5 (c : Dev nD) : W3 m c (Proc.devRef .tc main_arg5) = m ((c : Thread nD τ).loc main_arg5) :=
  calc W3 m c (Proc.devRef .tc main_arg5)
    _ = W2 m c (Proc.devRef .tc main_arg5) := StableHlo.after_of_writes_sub hostOps2 _ hostOps2_writes (by decide)
    _ = W1 m c (Proc.devRef .tc main_arg5) := W2_of_ne m c main_arg5 (by decide)
    _ = m ((c : Thread nD τ).loc main_arg5) := (W1_arr m c 5).trans (((dat0 (V0 m) c).arrAt_in 5 rfl _).trans (A_eq0 (V0 m) c 5))

/-! ## The proof data family and the thread state -/

/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The launches as segments -/

set_option backward.isDefEq.respectTransparency.types false in
/-- The embedding launch: entered from the buffers as launched, left at the first boundary. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The angle-loss launch: entered from the first boundary, left at the second. Each embedding table is read through
    two windows, each holding half of the table's share inside the launch. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := arrays1_of_unscopedBufs (pdats m 1 c) rfl rfl rfl rfl (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (pdats m 1 c) rfl rfl rfl rfl (V1 m c) (V2 m c) (fun _ => rfl)
      (W2_main_v1 m c) (fun b hb => W2_of_ne m c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .region (reg0 m), .region (reg1 m), .host (hseg hostOps2 hostOps2_sub hostOps2_fresh (W2 m)) ]

theorem main_run (c : Dev nD) : main (F := F) c = Pipeline.Seg.run (segs m) := (main_chain c).trans (by chain_rfl)

set_option backward.isDefEq.respectTransparency.types false in
/-- Every weakly fair execution of the program from memory m ends, nothing faulting, with every unscoped buffer of
    every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => (show iprop(StableHlo.held (c : Thread nD τ) (Pipeline.ucRefs τ sig) (W3 m c) ∗ R c)
          ⊢ (iprop(Tₙ m c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun _ h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W3_main_arg0 m c), (h c _ (mem_uc main_arg1 (by decide))).trans (W3_main_arg1 m c),
     (h c _ (mem_uc main_arg2 (by decide))).trans (W3_main_arg2 m c), (h c _ (mem_uc main_arg3 (by decide))).trans (W3_main_arg3 m c),
     (h c _ (mem_uc main_arg4 (by decide))).trans (W3_main_arg4 m c), (h c _ (mem_uc main_arg5 (by decide))).trans (W3_main_arg5 m c)⟩)
    (run_main m ρ)

/-- The run with the result named: the scalar result ends at the last boundary's contents, the arguments as launched. -/
theorem run_result : θ_run defs (onTc (τ := τ) (main (F := F))) ⟨m, fun _ => 0, ρ⟩ (fun r => ∀ c : Dev nD,
      r.2.mem ((c.tc : Thread nD τ).loc main_v2) = W3 m c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v2 (by decide)),
     (h c _ (mem_uc main_arg0 (by decide))).trans (W3_main_arg0 m c), (h c _ (mem_uc main_arg1 (by decide))).trans (W3_main_arg1 m c),
     (h c _ (mem_uc main_arg2 (by decide))).trans (W3_main_arg2 m c), (h c _ (mem_uc main_arg3 (by decide))).trans (W3_main_arg3 m c),
     (h c _ (mem_uc main_arg4 (by decide))).trans (W3_main_arg4 m c), (h c _ (mem_uc main_arg5 (by decide))).trans (W3_main_arg5 m c)⟩)
    (run_main m ρ)

end Cert.KernelIdeal.Hand

end
-- ==== Proof.AngleBlocks.lean ====
/-
  The angle-loss launch's windows read off their arrays: the two whole-table windows hold the tables themselves at
  every point; the two centre windows hold rows 8t … 8t+7 at point t; the result block is written back once, after
  the last point, so the result array ends holding the running sum's last value.
-/
import proofs.«132771_j86723979641277_1_alg».proof.Proof.Gen.KernelIdeal.Launch
import proofs.«132771_j86723979641277_1_alg».proof.Proof.Gen.KernelIdeal.Skeleton
import proofs.«132771_j86723979641277_1_alg».proof.Proof.Gen.KernelIdeal.Points
import proofs.«132771_j86723979641277_1_alg».proof.Proof.AngleBody
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps of the five windows, decided over the 64 grid points: the whole-table windows and the
    result window sit at block (0, 0) throughout; the centre windows at block (t, 0). -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0 :=
  (by decide +kernel : ∀ t : Fin grid1.N, _)

/-- The whole student table, at every point. -/
theorem iblk1_0 (c : Dev nD) (t : Fin cfg1.N) : iblk1 V c 0 t = V c main_v0_0 := by
  funext y
  unfold iblk1
  rw [View.read_apply]
  show V c main_v0_0 (((cfg1.win 0).blk t).view.emb y) = V c main_v0_0 y
  refine congrArg _ ?_
  obtain ⟨e00, e01, -⟩ := idx_facts1 t
  funext b; apply Fin.ext
  match b with
  | ⟨0, _⟩ => show win1_0.index t (0 : Fin 2) * 512 + 1 * (y 0).val = (y 0).val; omega
  | ⟨1, _⟩ => show win1_0.index t (1 : Fin 2) * 128 + 1 * (y 1).val = (y 1).val; omega

/-- The whole teacher table, at every point. -/
theorem iblk1_2 (c : Dev nD) (t : Fin cfg1.N) : iblk1 V c 2 t = V c main_v0_1 := by
  funext y
  unfold iblk1
  rw [View.read_apply]
  show V c main_v0_1 (((cfg1.win 2).blk t).view.emb y) = V c main_v0_1 y
  refine congrArg _ ?_
  obtain ⟨-, -, -, -, e20, e21, -⟩ := idx_facts1 t
  funext b; apply Fin.ext
  match b with
  | ⟨0, _⟩ => show win1_2.index t (0 : Fin 2) * 512 + 1 * (y 0).val = (y 0).val; omega
  | ⟨1, _⟩ => show win1_2.index t (1 : Fin 2) * 128 + 1 * (y 1).val = (y 1).val; omega

/-- The student centre rows of point t: row a of the block is row 8t + a of the table. -/
theorem iblk1_1_apply (c : Dev nD) (t : Fin cfg1.N) (a : Fin 8) (f : Fin 128) (h : t.val * 8 + a.val < 512) :
    iblk1 V c 1 t (ix2 a f) = V c main_v0_0 (ix2 (⟨t.val * 8 + a.val, h⟩ : Fin 512) f) := by
  unfold iblk1
  rw [View.read_apply]
  show V c main_v0_0 (((cfg1.win 1).blk t).view.emb (ix2 a f)) = V c main_v0_0 (ix2 (⟨t.val * 8 + a.val, h⟩ : Fin 512) f)
  refine congrArg _ ?_
  obtain ⟨-, -, e10, e11, -⟩ := idx_facts1 t
  funext b; apply Fin.ext
  match b with
  | ⟨0, _⟩ => show win1_1.index t (0 : Fin 2) * 8 + 1 * a.val = t.val * 8 + a.val; omega
  | ⟨1, _⟩ => show win1_1.index t (1 : Fin 2) * 128 + 1 * f.val = f.val; omega

/-- The teacher centre rows of point t. -/
theorem iblk1_3_apply (c : Dev nD) (t : Fin cfg1.N) (a : Fin 8) (f : Fin 128) (h : t.val * 8 + a.val < 512) :
    iblk1 V c 3 t (ix2 a f) = V c main_v0_1 (ix2 (⟨t.val * 8 + a.val, h⟩ : Fin 512) f) := by
  unfold iblk1
  rw [View.read_apply]
  show V c main_v0_1 (((cfg1.win 3).blk t).view.emb (ix2 a f)) = V c main_v0_1 (ix2 (⟨t.val * 8 + a.val, h⟩ : Fin 512) f)
  refine congrArg _ ?_
  obtain ⟨-, -, -, -, -, -, e30, e31, -⟩ := idx_facts1 t
  funext b; apply Fin.ext
  match b with
  | ⟨0, _⟩ => show win1_3.index t (0 : Fin 2) * 8 + 1 * a.val = t.val * 8 + a.val; omega
  | ⟨1, _⟩ => show win1_3.index t (1 : Fin 2) * 128 + 1 * f.val = f.val; omega

/-- An index of the result array lies in point t's block iff each coordinate lies in the block's range on its axis. -/
theorem mem_blk1_4 (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v1).slice (win1_4.rect t)).set ↔ _
  rw [View.set_slice_whole, Rect.mem_set_unit]
  exact Iff.rfl

/-- The result array after the launch: the running sum after the last point. -/
theorem arrAt1_4 (c : Dev nD) (h63 : 63 < cfg1.N) : (dat1 V c).arrAt 4 cfg1.N = accAt V c 63 h63 := by
  refine (dat1 V c).arrAt_eq_of_cover 4 (accAt V c 63 h63) ?_ ?_
  · -- the one point that writes back is the last, and it writes the running sum it holds
    intro t hf
    have ht : t.val = 63 := by have := (flush1_4 t).mp hf; have := lt64 t.isLt; omega
    obtain ⟨n, hn⟩ := t
    dsimp only at ht; subst ht
    show (cfg1.win 4).cut (grid1.coords ⟨63, hn⟩) ((dat1 V c).after 4 ⟨63, hn⟩) = _
    rw [after1_4]
    obtain ⟨-, -, -, -, -, -, -, -, e40, e41⟩ := idx_facts1 ⟨63, hn⟩
    funext j
    rw [View.read_apply]
    show accAt V c 63 hn ((cfg1.win 4).xinj (grid1.coords ⟨63, hn⟩) j) = accAt V c 63 h63 (((cfg1.win 4).blk ⟨63, hn⟩).view.emb j)
    refine congrArg _ ?_
    funext b; apply Fin.ext
    match b with
    | ⟨0, _⟩ => show (j 0).val = win1_4.index ⟨63, hn⟩ (0 : Fin 2) * 1 + 1 * (j 0).val; omega
    | ⟨1, _⟩ => show (j 1).val = win1_4.index ⟨63, hn⟩ (1 : Fin 2) * 1 + 1 * (j 1).val; omega
  · -- the last point's block is the whole one-element array
    intro i
    refine ⟨⟨63, h63⟩, (flush1_4 _).mpr rfl, ?_⟩
    rw [mem_blk1_4]
    obtain ⟨-, -, -, -, -, -, -, -, e40, e41⟩ := idx_facts1 ⟨63, h63⟩
    intro a
    match a with
    | ⟨0, _⟩ => show win1_4.index ⟨63, h63⟩ (0 : Fin 2) * 1 ≤ (i 0).val ∧ (i 0).val < win1_4.index ⟨63, h63⟩ (0 : Fin 2) * 1 + 1; have hi : (i 0).val < 1 := (i 0).isLt; omega
    | ⟨1, _⟩ => show win1_4.index ⟨63, h63⟩ (1 : Fin 2) * 1 ≤ (i 1).val ∧ (i 1).val < win1_4.index ⟨63, h63⟩ (1 : Fin 2) * 1 + 1; have hi : (i 1).val < 1 := (i 1).isLt; omega

end Cert.KernelIdeal.Hand

end
-- ==== Proof.AnglePieces.lean ====
/-
  What each whole-body run of the angle-loss body leaves in the result block, as one term of the operand blocks:
  at the first point the tile's sum added to the reset value; between, added to what the block held; at the last
  point added and then divided.
-/
import proofs.«132771_j86723979641277_1_alg».proof.Proof.Gen.KernelIdeal.Launch
import proofs.«132771_j86723979641277_1_alg».proof.Proof.Gen.KernelIdeal.Skeleton
import proofs.«132771_j86723979641277_1_alg».proof.Proof.Gen.KernelIdeal.Points
import proofs.«132771_j86723979641277_1_alg».proof.Proof.AngleBody
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of every rectangle this body loads or stores through are zero: each is the whole block. -/
private theorem hz : (![0, 0] : Fin 2 → Nat) = fun _ => 0 := funext fun a => by fin_cases a <;> rfl

/-- First point: reset, then add the tile. -/
theorem outFirst_eq (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : cond1_0 i) (hc1 : ¬cond1_1 i) (x0 : Vec F S512x128 .f32) (x1 : Vec F S8x128 .f32) (x2 : Vec F S512x128 .f32) (x3 : Vec F S8x128 .f32) :
    outFirst c i a1 h1 a2 h2 a3 h3 a4 h4 a5 h5 hc0 hc1 x0 x1 x2 x3 = k1_pay1 (k1_pay4 x0 x2 x1 x3) (k1_pay3 (F := F)) := by
  -- Two stores into the whole block, the later covering: the block ends as the later payload, whose own
  -- read-back of the block is the earlier store's payload, the zero block.
  unfold outFirst
  rw [View.read_writes_eq_canon _ _ _ (coverFirst c i a1 h1 a2 h2 a3 h3 a4 h4 a5 h5 hc0 hc1 x0 x1 x2 x3)]
  unfold runFirst
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S512x128) hz, View.ld_unit_zero (S := S8x128) hz]

/-- A point between: add the tile to what the block held. -/
theorem outMid_eq (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : ¬cond1_1 i) (x0 : Vec F S512x128 .f32) (x1 : Vec F S8x128 .f32) (x2 : Vec F S512x128 .f32) (x3 : Vec F S8x128 .f32) (xo : Vec F S1x1 .f32) :
    outMid c i a1 h1 a2 h2 a3 h3 a4 h4 a5 h5 hc0 hc1 x0 x1 x2 x3 xo = k1_pay1 (k1_pay4 x0 x2 x1 x3) xo := by
  -- One store into the whole block; its payload read the block's prior contents through the whole rectangle.
  unfold outMid
  rw [View.read_writes_eq_canon _ _ _ (coverMid c i a1 h1 a2 h2 a3 h3 a4 h4 a5 h5 hc0 hc1 x0 x1 x2 x3 xo)]
  unfold runMid
  dsimp only
  sl_unfold_words
  rw [View.canon_unit_zero (S := S1x1) hz]
  simp only [View.readAt_eq_ld, h1.read_unread, h2.read_unread, h3.read_unread, h4.read_unread, h5.read_unread,
    View.ld_unit_zero (S := S512x128) hz, View.ld_unit_zero (S := S8x128) hz, View.ld_unit_zero (S := S1x1) hz]

/-- Last point: add the tile, then divide. -/
theorem outLast_eq (c : Dev nD) (i : grid1.Coords) (a1 : Memref sig .tc .vmem S512x128 .f32) (h1 : a1.IsWhole) (a2 : Memref sig .tc .vmem S8x128 .f32) (h2 : a2.IsWhole)
    (a3 : Memref sig .tc .vmem S512x128 .f32) (h3 : a3.IsWhole) (a4 : Memref sig .tc .vmem S8x128 .f32) (h4 : a4.IsWhole)
    (a5 : Memref sig .tc .vmem S1x1 .f32) (h5 : a5.IsWhole) (hc0 : ¬cond1_0 i) (hc1 : cond1_1 i) (x0 : Vec F S512x128 .f32) (x1 : Vec F S8x128 .f32) (x2 : Vec F S512x128 .f32) (x3 : Vec F S8x128 .f32) (xo : Vec F S1x1 .f32) :
    outLast c i a1 h1 a2 h2 a3 h3 a4 h4 a5 h5 hc0 hc1 x0 x1 x2 x3 xo = k1_pay2 (k1_pay1 (k1_pay4 x0 x2 x1 x3) xo) := by
  -- Two stores into the whole block, the later covering: the quotient of what the earlier store left,
  -- which is the sum added to the block's prior contents.
  unfold outLast
  rw [View.read_writes_eq_canon _ _ _ (coverLast c i a1 h1 a2 h2 a3 h3 a4 h4 a5 h5 hc0 hc1 x0 x1 x2 x3 xo)]
  unfold runLast
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S512x128) hz, View.ld_unit_zero (S := S8x128) hz, View.ld_unit_zero (S := S1x1) hz]

end Cert.KernelIdeal.Hand

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.Spec.lean ====
/-
  The loss both programs compute, as one function of the six argument arrays over the extended reals.
  An embedding table is  e = X · W + b  (512 rows of 128 features). For a centre row r the difference vectors
  d(j) = e(j) − r  are divided by  max(‖d(j)‖, ε),  and the cosine table of the centre is  c(j,k) = Σ_f u(j,f) · u(k,f).
  The loss is the sum over every centre i (r = e(i)) and every pair (j,k) of |c_student − c_teacher|, divided by 512³.
  The kernel walks the centres in 64 tiles of 8 and keeps a running sum; the reference sums the flattened table once.
-/
import Idealize.ShloMosaic.PureOps.Ideal
import Idealize.ShloMosaic.PureOps.Ideal.Laws
import Idealize.ShloMosaic.Lib.ValueIdx
import proofs.«132771_j86723979641277_1_alg».proof.Proof.LibTileSums

noncomputable section

namespace Cert.AngleSpec

open Idealize.ShloMosaic Idealize.ShloMosaic.ValueIdx

/-- A table of 512 embeddings of 128 features; one embedding. -/
abbrev Emb := Fin 512 → Fin 128 → EReal
abbrev Row := Fin 128 → EReal

/-- The normalisation floor ε (the f32 nearest 1e-12) and the divisor 512³ = 2²⁷. -/
def eps : EReal := Ideal.ofBits .f32 0x2B8CBCCC#32
def vol : EReal := Ideal.ofBits .f32 0x4D000000#32

/-- A rank-2 array as a matrix, a rank-1 array as a vector. -/
def mat {a b : ℕ} (A : (⟨2, ![a, b]⟩ : Shape).Idx → EReal) : Fin a → Fin b → EReal := fun i k => A (ix2 i k)
def vec {a : ℕ} (A : (⟨1, ![a]⟩ : Shape).Idx → EReal) : Fin a → EReal := fun i => A (ix1 i)

/-- X · W + b at row i, feature f. -/
def embed (X : Fin 512 → Fin 512 → EReal) (W : Fin 512 → Fin 128 → EReal) (b : Fin 128 → EReal) : Emb :=
  fun i f => (∑ k : Fin 512, X i k * W k f) + b f

/-- The difference vector from the centre r to row j. -/
def diffR (e : Emb) (r : Row) (j : Fin 512) (f : Fin 128) : EReal := e j f - r f

/-- Its length. -/
def nrmR (e : Emb) (r : Row) (j : Fin 512) : EReal := Ideal.sqrt (∑ f : Fin 128, diffR e r j f * diffR e r j f)

/-- The difference vector divided by its length floored at ε. -/
def unitR (e : Emb) (r : Row) (j : Fin 512) (f : Fin 128) : EReal := Ideal.div (diffR e r j f) (max (nrmR e r j) eps)

/-- The cosine of the angle at the centre between rows j and k. -/
def cosR (e : Emb) (r : Row) (j k : Fin 512) : EReal := ∑ f : Fin 128, unitR e r j f * unitR e r k f

/-- The absolute value on the extended reals. -/
def absE (x : EReal) : EReal := max x (-x)

/-- One term of the loss: centres rs (student) and rt (teacher), the pair (j, k). -/
def termR (s t : Emb) (rs rt : Row) (j k : Fin 512) : EReal := absE (cosR s rs j k - cosR t rt j k)

/-- The terms of one tile of 8 centres, summed. -/
def tileSum (s t : Emb) (rs rt : Fin 8 → Row) : EReal :=
  ∑ a : Fin 8, ∑ j : Fin 512, ∑ k : Fin 512, termR s t (rs a) (rt a) j k

/-- The sum over every centre and pair. -/
def total (s t : Emb) : EReal := ∑ i : Fin 512, ∑ j : Fin 512, ∑ k : Fin 512, termR s t (s i) (t i) j k

/-- The loss. -/
def loss (s t : Emb) : EReal := Ideal.div (total s t) vol

/-- The loss of the six argument arrays. -/
def lossOf (X Xt : (⟨2, ![512, 512]⟩ : Shape).Idx → EReal) (W1 : (⟨2, ![512, 128]⟩ : Shape).Idx → EReal) (b1 : (⟨1, ![128]⟩ : Shape).Idx → EReal)
    (W2 : (⟨2, ![512, 128]⟩ : Shape).Idx → EReal) (b2 : (⟨1, ![128]⟩ : Shape).Idx → EReal) : EReal :=
  loss (embed (mat X) (mat W1) (vec b1)) (embed (mat Xt) (mat W2) (vec b2))

/-- The centres of tile n: rows 8n … 8n+7 of the table. -/
def tileRows (e : Emb) (n : Fin 64) : Fin 8 → Row := fun a => e ⟨n.val * 8 + a.val, Cert.LibTileSums.tile_lt (by norm_num) n a⟩

/-- The whole sum is the sum of the 64 tiles' sums. -/
theorem total_eq_tiles (s t : Emb) : total s t = ∑ n : Fin 64, tileSum s t (tileRows s n) (tileRows t n) := by
  unfold total tileSum
  rw [← Cert.LibTileSums.sum_tiles (A := 64) (B := 8) (n := 512) (by norm_num) (fun i => ∑ j : Fin 512, ∑ k : Fin 512, termR s t (s i) (t i) j k)]
  rfl

end Cert.AngleSpec

end
-- ==== Proof.AngleMath.lean ====
/-
  The tile's table of differences read at one element, over the extended reals: at centre a and pair (j, k) the
  student's cosine minus the teacher's, each cosine the sum over the 128 features of the product of the two
  normalised difference vectors.
-/
import proofs.«132771_j86723979641277_1_alg».proof.Proof.Gen.KernelIdeal.Skeleton
import proofs.«132771_j86723979641277_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.AngleSpec
open Idealize.ShloMosaic Idealize.ShloMosaic.ValueIdx

/-! ## The two broadcasts: the table over the centres, the centres over the rows -/

/-- The table e, given a leading unit axis and repeated over the 8 centres, reads e(j, f) at every centre. -/
theorem tableOverCentres_apply (e : FVec Ideal S512x128 .f32) (a : Fin 8) (j : Fin 512) (f : Fin 128) :
    broadcastTo S8x512x128 (shapeCast S1x512x128 (shapeCast S512x128 e shapeCasts_S512x128_S512x128) shapeCasts_S512x128_S1x512x128)
      broadcasts_S1x512x128_S8x512x128 (ix3 a j f) = e (ix2 j f) := by
  refine (broadcastTo_apply _ broadcasts_S1x512x128_S8x512x128 (ix3 a j f) (ix3 (0 : Fin 1) j f) fun c => ?_).trans ?_
  · match c with
    | ⟨0, _⟩ => show 0 = if (1 : Nat) = 1 then 0 else a.val; rw [if_pos rfl]
    | ⟨1, _⟩ => show j.val = if (512 : Nat) = 1 then 0 else j.val; rw [if_neg (by decide)]
    | ⟨2, _⟩ => show f.val = if (128 : Nat) = 1 then 0 else f.val; rw [if_neg (by decide)]
  · refine (shapeCast_ab_1ab_apply _ shapeCasts_S512x128_S1x512x128 (0 : Fin 1) j f).trans ?_
    rw [shapeCast_self]

/-- The centres r, given a middle unit axis and repeated over the 512 rows, read r(a, f) at every row. -/
theorem centresOverRows_apply (r : FVec Ideal S8x128 .f32) (a : Fin 8) (j : Fin 512) (f : Fin 128) :
    broadcastTo S8x512x128 (shapeCast S8x1x128 (shapeCast S8x128 r shapeCasts_S8x128_S8x128) shapeCasts_S8x128_S8x1x128)
      broadcasts_S8x1x128_S8x512x128 (ix3 a j f) = r (ix2 a f) := by
  refine (broadcastTo_apply _ broadcasts_S8x1x128_S8x512x128 (ix3 a j f) (ix3 a (0 : Fin 1) f) fun c => ?_).trans ?_
  · match c with
    | ⟨0, _⟩ => show a.val = if (8 : Nat) = 1 then 0 else a.val; rw [if_neg (by decide)]
    | ⟨1, _⟩ => show 0 = if (1 : Nat) = 1 then 0 else j.val; rw [if_pos rfl]
    | ⟨2, _⟩ => show f.val = if (128 : Nat) = 1 then 0 else f.val; rw [if_neg (by decide)]
  · refine (shapeCast_apply _ shapeCasts_S8x128_S8x1x128 (ix3 a (0 : Fin 1) f) (ix2 a f) ?_).trans ?_
    · rw [Shape.rowMajor_val_two, Shape.rowMajor_val_three]
      show a.val * 128 + f.val = (a.val * 1 + 0) * 128 + f.val
      omega
    · rw [shapeCast_self]

/-! ## The difference vectors -/

/-- The difference table of one tile at (a, j, f): e(j, f) − r(a, f). -/
theorem diffTable_apply (e : FVec Ideal S512x128 .f32) (r : FVec Ideal S8x128 .f32) (a : Fin 8) (j : Fin 512) (f : Fin 128) :
    subf
      (broadcastTo S8x512x128 (shapeCast S1x512x128 (shapeCast S512x128 e shapeCasts_S512x128_S512x128) shapeCasts_S512x128_S1x512x128)
        broadcasts_S1x512x128_S8x512x128)
      (broadcastTo S8x512x128 (shapeCast S8x1x128 (shapeCast S8x128 r shapeCasts_S8x128_S8x128) shapeCasts_S8x128_S8x1x128)
        broadcasts_S8x1x128_S8x512x128) (ix3 a j f)
      = diffR (mat e) (mat r a) j f := by
  refine (subf_apply _ _ (ix3 a j f)).trans ?_
  rw [tableOverCentres_apply e a j f, centresOverRows_apply r a j f]
  rfl

/-! ## The lengths: the lane sum, its trailing unit axis, the root, the floor, and the repeat over the features -/

/-- The sum over the last axis at (a, j): the sum over the 128 features. -/
theorem laneSum_apply (src : FVec Ideal S8x512x128 .f32) (a : Fin 8) (j : Fin 512) :
    multiReduction (F := Ideal) .add [2] S8x512 src 0x00000000#32 reduces_S8x512x128_S8x512 (.inl rfl) rfl (ix2 a j)
      = ∑ g : Fin 128, src (ix3 a j g) := by
  refine (Ideal.multiReduction_add_single src 0x00000000#32 reduces_S8x512x128_S8x512 (.inl rfl) rfl (ix2 a j)).trans ?_
  refine Finset.sum_congr rfl fun g _ => ?_
  exact congrArg src (funext fun c => Fin.ext (by
    match c with
    | ⟨0, _⟩ => rfl
    | ⟨1, _⟩ => rfl
    | ⟨2, _⟩ => rfl))

/-- A table over (centre, row) given a trailing unit axis reads the same entry. -/
theorem trailingUnit_apply (v : FVec Ideal S8x512 .f32) (a : Fin 8) (j : Fin 512) (u : Fin 1) :
    shapeCast S8x512x1 v shapeCasts_S8x512_S8x512x1 (ix3 a j u) = v (ix2 a j) := by
  refine shapeCast_apply v shapeCasts_S8x512_S8x512x1 (ix3 a j u) (ix2 a j) ?_
  rw [Shape.rowMajor_val_two, Shape.rowMajor_val_three]
  show a.val * 512 + j.val = (a.val * 512 + j.val) * 1 + u.val
  have := u.isLt
  omega

/-- A table with a trailing unit axis repeated over the 128 features reads its one entry. -/
theorem overFeatures_apply (v : FVec Ideal S8x512x1 .f32) (a : Fin 8) (j : Fin 512) (f : Fin 128) :
    broadcastTo S8x512x128 v broadcasts_S8x512x1_S8x512x128 (ix3 a j f) = v (ix3 a j (0 : Fin 1)) := by
  refine broadcastTo_apply v broadcasts_S8x512x1_S8x512x128 (ix3 a j f) (ix3 a j (0 : Fin 1)) fun c => ?_
  match c with
  | ⟨0, _⟩ => show a.val = if (8 : Nat) = 1 then 0 else a.val; rw [if_neg (by decide)]
  | ⟨1, _⟩ => show j.val = if (512 : Nat) = 1 then 0 else j.val; rw [if_neg (by decide)]
  | ⟨2, _⟩ => show 0 = if (1 : Nat) = 1 then 0 else f.val; rw [if_pos rfl]

/-- The floored length of the difference vector d(a, j, ·), repeated over the features. -/
theorem flooredLength_apply (d : FVec Ideal S8x512x128 .f32) (a : Fin 8) (j : Fin 512) (f : Fin 128) :
    broadcastTo S8x512x128
      (maximumf
        (sqrt (shapeCast S8x512x1
          (multiReduction (F := Ideal) .add [2] S8x512 (mulf d d) 0x00000000#32 reduces_S8x512x128_S8x512 (.inl rfl) rfl)
          shapeCasts_S8x512_S8x512x1))
        (broadcast S8x512x1 (Scalar.ofBits (F := Ideal) .f32 0x2B8CBCCC#32)))
      broadcasts_S8x512x1_S8x512x128 (ix3 a j f)
      = max (Ideal.sqrt (∑ g : Fin 128, d (ix3 a j g) * d (ix3 a j g))) eps := by
  refine (overFeatures_apply _ a j f).trans ?_
  refine (maximumf_apply _ _ (ix3 a j (0 : Fin 1))).trans ?_
  refine congrArg₂ max ?_ rfl
  show Ideal.sqrt (shapeCast S8x512x1 _ shapeCasts_S8x512_S8x512x1 (ix3 a j (0 : Fin 1))) = _
  rw [trailingUnit_apply _ a j (0 : Fin 1), laneSum_apply (mulf d d) a j]
  rfl

/-! ## The batched product: which operand entries the feature index meets at the result's (a, j, k) -/

/-- The left operand's centre is the result's centre. -/
theorem gramLhs_centre (i : S8x512x512.Idx) (q : dot_S8x512x128_S8x512x128_S8x512x512_2_2_1_1_0_0.contr.Idx) :
    (dot_S8x512x128_S8x512x128_S8x512x512_2_2_1_1_0_0.lhsIdx i q 0).val = (i 0).val := by
  unfold DotDims.lhsIdx
  rw [dif_pos (show (0 : Fin S8x512x128.rank) ∈ dot_S8x512x128_S8x512x128_S8x512x512_2_2_1_1_0_0.lhsBatch by decide)]
  rfl

/-- The left operand's row is the pair's first row. -/
theorem gramLhs_row (i : S8x512x512.Idx) (q : dot_S8x512x128_S8x512x128_S8x512x512_2_2_1_1_0_0.contr.Idx) :
    (dot_S8x512x128_S8x512x128_S8x512x512_2_2_1_1_0_0.lhsIdx i q 1).val = (i 1).val := by
  unfold DotDims.lhsIdx
  rw [dif_neg (show ¬(1 : Fin S8x512x128.rank) ∈ dot_S8x512x128_S8x512x128_S8x512x512_2_2_1_1_0_0.lhsBatch by decide),
    dif_pos (show (1 : Fin S8x512x128.rank) ∈ dot_S8x512x128_S8x512x128_S8x512x512_2_2_1_1_0_0.lhsNonContracting by decide)]
  rfl

/-- The left operand's feature is the contraction coordinate. -/
theorem gramLhs_feature (i : S8x512x512.Idx) (q : dot_S8x512x128_S8x512x128_S8x512x512_2_2_1_1_0_0.contr.Idx) :
    (dot_S8x512x128_S8x512x128_S8x512x512_2_2_1_1_0_0.lhsIdx i q 2).val = (q ⟨0, by decide⟩).val :=
  dot_S8x512x128_S8x512x128_S8x512x512_2_2_1_1_0_0.lhsIdx_val_of_single rfl i q

/-- The right operand's centre is the result's centre. -/
theorem gramRhs_centre (i : S8x512x512.Idx) (q : dot_S8x512x128_S8x512x128_S8x512x512_2_2_1_1_0_0.contr.Idx) :
    (dot_S8x512x128_S8x512x128_S8x512x512_2_2_1_1_0_0.rhsIdx i q 0).val = (i 0).val := by
  unfold DotDims.rhsIdx
  rw [dif_pos (show (0 : Fin S8x512x128.rank) ∈ dot_S8x512x128_S8x512x128_S8x512x512_2_2_1_1_0_0.rhsBatch by decide)]
  rfl

/-- The right operand's row is the pair's second row. -/
theorem gramRhs_row (i : S8x512x512.Idx) (q : dot_S8x512x128_S8x512x128_S8x512x512_2_2_1_1_0_0.contr.Idx) :
    (dot_S8x512x128_S8x512x128_S8x512x512_2_2_1_1_0_0.rhsIdx i q 1).val = (i 2).val := by
  unfold DotDims.rhsIdx
  rw [dif_neg (show ¬(1 : Fin S8x512x128.rank) ∈ dot_S8x512x128_S8x512x128_S8x512x512_2_2_1_1_0_0.rhsBatch by decide),
    dif_pos (show (1 : Fin S8x512x128.rank) ∈ dot_S8x512x128_S8x512x128_S8x512x512_2_2_1_1_0_0.rhsNonContracting by decide)]
  rfl

/-- The right operand's feature is the contraction coordinate. -/
theorem gramRhs_feature (i : S8x512x512.Idx) (q : dot_S8x512x128_S8x512x128_S8x512x512_2_2_1_1_0_0.contr.Idx) :
    (dot_S8x512x128_S8x512x128_S8x512x512_2_2_1_1_0_0.rhsIdx i q 2).val = (q ⟨0, by decide⟩).val :=
  dot_S8x512x128_S8x512x128_S8x512x512_2_2_1_1_0_0.rhsIdx_val_of_single rfl i q

/-- The product of a table with itself, centre by centre, onto the zero accumulator: at (a, j, k) the sum over the
    features of u(a, j, f) · u(a, k, f). -/
theorem gram_apply (u : FVec Ideal S8x512x128 .bf16) (a : Fin 8) (j k : Fin 512) :
    matmul (F := Ideal) (φ₁ := .bf16) (φ₂ := .bf16) dot_S8x512x128_S8x512x128_S8x512x512_2_2_1_1_0_0 none u u
        (constant (F := Ideal) S8x512x512 .f32 0x00000000#32) (ix3 a j k)
      = ∑ f : Fin 128, u (ix3 a j f) * u (ix3 a k f) := by
  refine (Ideal.matmul_constant_zero_apply (φ₁ := .bf16) (φ₂ := .bf16) dot_S8x512x128_S8x512x128_S8x512x512_2_2_1_1_0_0 none u u (ix3 a j k)).trans ?_
  rw [← Equiv.sum_comp (contrEquiv1 dot_S8x512x128_S8x512x128_S8x512x512_2_2_1_1_0_0 128 rfl rfl).symm]
  refine Finset.sum_congr rfl fun f _ => ?_
  have hf := contrEquiv1_symm_val dot_S8x512x128_S8x512x128_S8x512x512_2_2_1_1_0_0 128 rfl rfl f
  have el : dot_S8x512x128_S8x512x128_S8x512x512_2_2_1_1_0_0.lhsIdx (ix3 a j k) ((contrEquiv1 dot_S8x512x128_S8x512x128_S8x512x512_2_2_1_1_0_0 128 rfl rfl).symm f) = ix3 a j f :=
    funext fun c => Fin.ext (by
      match c with
      | ⟨0, _⟩ => exact gramLhs_centre _ _
      | ⟨1, _⟩ => exact gramLhs_row _ _
      | ⟨2, _⟩ => exact (gramLhs_feature _ _).trans hf)
  have er : dot_S8x512x128_S8x512x128_S8x512x512_2_2_1_1_0_0.rhsIdx (ix3 a j k) ((contrEquiv1 dot_S8x512x128_S8x512x128_S8x512x512_2_2_1_1_0_0 128 rfl rfl).symm f) = ix3 a k f :=
    funext fun c => Fin.ext (by
      match c with
      | ⟨0, _⟩ => exact gramRhs_centre _ _
      | ⟨1, _⟩ => exact gramRhs_row _ _
      | ⟨2, _⟩ => exact (gramRhs_feature _ _).trans hf)
  rw [el, er]

/-! ## One side of the tile: differences, unit vectors, cosines -/

/-- The difference table of a tile: the table e against the 8 centres r. -/
def tileDiff (e : FVec Ideal S512x128 .f32) (r : FVec Ideal S8x128 .f32) : FVec Ideal S8x512x128 .f32 :=
  subf
    (broadcastTo S8x512x128 (shapeCast S1x512x128 (shapeCast S512x128 e shapeCasts_S512x128_S512x128) shapeCasts_S512x128_S1x512x128)
      broadcasts_S1x512x128_S8x512x128)
    (broadcastTo S8x512x128 (shapeCast S8x1x128 (shapeCast S8x128 r shapeCasts_S8x128_S8x128) shapeCasts_S8x128_S8x1x128)
      broadcasts_S8x1x128_S8x512x128)

/-- The difference vectors divided by their floored lengths. -/
def tileUnit (e : FVec Ideal S512x128 .f32) (r : FVec Ideal S8x128 .f32) : FVec Ideal S8x512x128 .f32 :=
  divf (tileDiff e r)
    (broadcastTo S8x512x128
      (maximumf
        (sqrt (shapeCast S8x512x1
          (multiReduction (F := Ideal) .add [2] S8x512 (mulf (tileDiff e r) (tileDiff e r)) 0x00000000#32 reduces_S8x512x128_S8x512 (.inl rfl) rfl)
          shapeCasts_S8x512_S8x512x1))
        (broadcast S8x512x1 (Scalar.ofBits (F := Ideal) .f32 0x2B8CBCCC#32)))
      broadcasts_S8x512x1_S8x512x128)

/-- The cosine table of a tile: the unit vectors' products, centre by centre. -/
def tileCos (e : FVec Ideal S512x128 .f32) (r : FVec Ideal S8x128 .f32) : FVec Ideal S8x512x512 .f32 :=
  matmul (F := Ideal) (φ₁ := .bf16) (φ₂ := .bf16) dot_S8x512x128_S8x512x128_S8x512x512_2_2_1_1_0_0 none
    (truncf .bf16 (tileUnit e r) bitsLt_bf16_f32) (truncf .bf16 (tileUnit e r) bitsLt_bf16_f32)
    (constant (F := Ideal) S8x512x512 .f32 0x00000000#32)

theorem tileDiff_apply (e : FVec Ideal S512x128 .f32) (r : FVec Ideal S8x128 .f32) (a : Fin 8) (j : Fin 512) (f : Fin 128) :
    tileDiff e r (ix3 a j f) = diffR (mat e) (mat r a) j f :=
  diffTable_apply e r a j f

theorem tileUnit_apply (e : FVec Ideal S512x128 .f32) (r : FVec Ideal S8x128 .f32) (a : Fin 8) (j : Fin 512) (f : Fin 128) :
    tileUnit e r (ix3 a j f) = unitR (mat e) (mat r a) j f := by
  unfold tileUnit
  refine (divf_apply _ _ (ix3 a j f)).trans ?_
  rw [flooredLength_apply (tileDiff e r) a j f]
  simp only [tileDiff_apply]
  rfl

theorem tileCos_apply (e : FVec Ideal S512x128 .f32) (r : FVec Ideal S8x128 .f32) (a : Fin 8) (j k : Fin 512) :
    tileCos e r (ix3 a j k) = cosR (mat e) (mat r a) j k := by
  unfold tileCos
  refine (gram_apply _ a j k).trans ?_
  unfold cosR
  refine Finset.sum_congr rfl fun f _ => ?_
  show tileUnit e r (ix3 a j f) * tileUnit e r (ix3 a k f) = _
  rw [tileUnit_apply, tileUnit_apply]

/-- The payload is the student's cosine table minus the teacher's. -/
theorem pay4_eq (sF tF : Vec Ideal S512x128 .f32) (sC tC : Vec Ideal S8x128 .f32) :
    k1_pay4 (F := Ideal) sF tF sC tC = subf (tileCos sF sC) (tileCos tF tC) := rfl

/-- The tile's table of differences at centre a, pair (j, k): the centres the tile's 8 rows, the tables the whole
    embeddings. -/
theorem pay4_apply (sF tF : Vec Ideal S512x128 .f32) (sC tC : Vec Ideal S8x128 .f32) (a : Fin 8) (j k : Fin 512) :
    k1_pay4 (F := Ideal) sF tF sC tC (ix3 a j k) = cosR (mat sF) (mat sC a) j k - cosR (mat tF) (mat tC a) j k := by
  rw [pay4_eq]
  refine (subf_apply _ _ (ix3 a j k)).trans ?_
  rw [tileCos_apply, tileCos_apply]

end Cert.KernelIdeal.Hand

end
-- ==== Proof.AngleSum.lean ====
/-
  The running sum's arithmetic read at its one element, over the extended reals: a tile's absolute values summed over
  the pair's second row, then its first, then the centre, and added to the block; the final division; the reset value.
-/
import proofs.«132771_j86723979641277_1_alg».proof.Proof.Gen.KernelIdeal.Skeleton
import proofs.«132771_j86723979641277_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.AngleSpec
open Idealize.ShloMosaic Idealize.ShloMosaic.ValueIdx

/-- The absolute value of an element is the larger of it and its negation. -/
theorem absf_ix3 (P : FVec Ideal S8x512x512 .f32) (a : Fin 8) (j k : Fin 512) :
    absf P (ix3 a j k) = absE (P (ix3 a j k)) := rfl

/-- The sum over the pair's second row: the last axis of an 8 × 512 × 512 array summed away. -/
theorem sumLast_apply (x : FVec Ideal S8x512x512 .f32) (h : S8x512x512.Reduces [2] S8x512) (hφ : FKind.Formats .f32)
    (hacc : (0x00000000#32 : BitVec FTy.f32.bits) = FKind.add.neutral .f32 hφ) (a : Fin 8) (j : Fin 512) :
    multiReduction (F := Ideal) .add [2] S8x512 x 0x00000000#32 h hφ hacc (ix2 a j) = ∑ k : Fin 512, x (ix3 a j k) := by
  refine (Ideal.multiReduction_add_single x _ h hφ hacc (ix2 a j)).trans ?_
  show ∑ k : Fin 512, x (h.lift (ix2 a j) k) = ∑ k : Fin 512, x (ix3 a j k)
  refine Finset.sum_congr rfl fun k _ => congrArg x ?_
  funext c
  exact Fin.ext (match c with | ⟨0, _⟩ => rfl | ⟨1, _⟩ => rfl | ⟨2, _⟩ => rfl)

/-- The sum over the pair's first row: the last axis of an 8 × 512 array summed away. -/
theorem sumMid_apply (y : FVec Ideal S8x512 .f32) (h : S8x512.Reduces [1] S8) (hφ : FKind.Formats .f32)
    (hacc : (0x00000000#32 : BitVec FTy.f32.bits) = FKind.add.neutral .f32 hφ) (a : Fin 8) :
    multiReduction (F := Ideal) .add [1] S8 y 0x00000000#32 h hφ hacc (ix1 a) = ∑ j : Fin 512, y (ix2 a j) := by
  refine (Ideal.multiReduction_add_single y _ h hφ hacc (ix1 a)).trans ?_
  show ∑ j : Fin 512, y (h.lift (ix1 a) j) = ∑ j : Fin 512, y (ix2 a j)
  refine Finset.sum_congr rfl fun j _ => congrArg y ?_
  funext c
  exact Fin.ext (match c with | ⟨0, _⟩ => rfl | ⟨1, _⟩ => rfl)

/-- The sum over the centres: the last axis of a 1 × 8 array summed away. -/
theorem sumCentre_apply (w : FVec Ideal S1x8 .f32) (h : S1x8.Reduces [1] S1) (hφ : FKind.Formats .f32)
    (hacc : (0x00000000#32 : BitVec FTy.f32.bits) = FKind.add.neutral .f32 hφ) :
    multiReduction (F := Ideal) .add [1] S1 w 0x00000000#32 h hφ hacc (ix1 0) = ∑ a : Fin 8, w (ix2 0 a) := by
  refine (Ideal.multiReduction_add_single w _ h hφ hacc (ix1 0)).trans ?_
  show ∑ a : Fin 8, w (h.lift (ix1 0) a) = ∑ a : Fin 8, w (ix2 0 a)
  refine Finset.sum_congr rfl fun a _ => congrArg w ?_
  funext c
  exact Fin.ext (match c with | ⟨0, _⟩ => rfl | ⟨1, _⟩ => rfl)

/-- Reading a 1 × 1 array at position (0, 0) is reading its one element. -/
theorem extract00_apply (v : FVec Ideal S1x1 .f32) (h : ∀ a, (![0, 0] : Fin 2 → Nat) a < S1x1.size a) :
    extractAt ![0, 0] v h = v (ix2 0 0) := by
  unfold extractAt
  refine congrArg v ?_
  funext c
  exact Fin.ext (match c with | ⟨0, _⟩ => rfl | ⟨1, _⟩ => rfl)

/-- Adding a tile: the running sum plus the sum over the tile of the absolute values. -/
theorem pay1_apply (P : FVec Ideal S8x512x512 .f32) (acc : Vec Ideal S1x1 .f32) :
    k1_pay1 (F := Ideal) P acc (ix2 0 0) = acc (ix2 0 0) + ∑ a : Fin 8, ∑ j : Fin 512, ∑ k : Fin 512, absE (P (ix3 a j k)) := by
  unfold k1_pay1
  refine (addf_apply _ _ _).trans ?_
  refine congrArg₂ (· + ·) (congrFun (shapeCast_self acc _) _) ?_
  refine (broadcast_apply _ _).trans ?_
  refine (extract00_apply _ _).trans ?_
  refine (shapeCast_a_1a_apply _ _ 0 0).trans ?_
  refine (sumCentre_apply _ _ _ _).trans ?_
  refine Finset.sum_congr rfl fun a _ => ?_
  refine (shapeCast_a_1a_apply _ _ 0 a).trans ?_
  refine (sumMid_apply _ _ _ _ a).trans ?_
  refine Finset.sum_congr rfl fun j _ => ?_
  refine (sumLast_apply _ _ _ _ a j).trans ?_
  exact Finset.sum_congr rfl fun k _ => absf_ix3 P a j k

/-- The final division by 512³. -/
theorem pay2_apply (v : Vec Ideal S1x1 .f32) : k1_pay2 (F := Ideal) v (ix2 0 0) = Ideal.div (v (ix2 0 0)) vol := by
  unfold k1_pay2
  refine (divf_apply _ _ _).trans ?_
  exact congrArg₂ Ideal.div (congrFun (shapeCast_self v _) _) rfl

/-- The reset value. -/
theorem pay3_apply : k1_pay3 (F := Ideal) (ix2 0 0) = 0 := by
  unfold k1_pay3
  exact (broadcast_apply _ _).trans Ideal.ofBits_zero_f32

end Cert.KernelIdeal.Hand

end
-- ==== Proof.AngleTotal.lean ====
/-
  The running sum of the angle-loss launch in closed form, over the extended reals: after point n (n < 63) the result
  block holds the sum of the tile sums 0 … n; after the last point it holds the sum of all 64 tile sums — which is the
  sum over every centre and pair — divided by 512³.
-/
import proofs.«132771_j86723979641277_1_alg».proof.Proof.Gen.KernelIdeal.Launch
import proofs.«132771_j86723979641277_1_alg».proof.Proof.Gen.KernelIdeal.Skeleton
import proofs.«132771_j86723979641277_1_alg».proof.Proof.Gen.KernelIdeal.Points
import proofs.«132771_j86723979641277_1_alg».proof.Proof.AngleBlocks
import proofs.«132771_j86723979641277_1_alg».proof.Proof.AnglePieces
import proofs.«132771_j86723979641277_1_alg».proof.Proof.AngleMath
import proofs.«132771_j86723979641277_1_alg».proof.Proof.AngleSum
import proofs.«132771_j86723979641277_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.AngleSpec Idealize.ShloMosaic.ValueIdx

/-- One tile's step of the running sum. -/
theorem tile_step (sF tF : Vec Ideal S512x128 .f32) (sC tC : Vec Ideal S8x128 .f32) (acc : Vec Ideal S1x1 .f32) :
    k1_pay1 (F := Ideal) (k1_pay4 sF tF sC tC) acc (ix2 0 0) = acc (ix2 0 0) + tileSum (mat sF) (mat tF) (mat sC) (mat tC) := by
  rw [pay1_apply]
  unfold tileSum termR
  simp only [pay4_apply]

variable (V : (c : Dev nD) → (b : Ref sig .tc) → Buf (Elt Ideal) ((c : Thread nD τ).loc b))

/-- The two embedding tables as the launch finds them. -/
def sTab (c : Dev nD) : Emb := mat (V c main_v0_0)
def tTab (c : Dev nD) : Emb := mat (V c main_v0_1)

/-- The tile sum of tile n (0 beyond the grid). -/
def tileOf (c : Dev nD) (n : ℕ) : EReal :=
  if h : n < 64 then tileSum (sTab V c) (tTab V c) (tileRows (sTab V c) ⟨n, h⟩) (tileRows (tTab V c) ⟨n, h⟩) else 0

/-- The centre windows at point t are the tile's rows of the tables. -/
theorem centre_s (c : Dev nD) (t : Fin cfg1.N) : mat (iblk1 V c 1 t) = tileRows (sTab V c) ⟨t.val, lt64 t.isLt⟩ := by
  funext a f
  have h : t.val * 8 + a.val < 512 := by have := lt64 t.isLt; have := a.isLt; omega
  exact iblk1_1_apply V c t a f h
theorem centre_t (c : Dev nD) (t : Fin cfg1.N) : mat (iblk1 V c 3 t) = tileRows (tTab V c) ⟨t.val, lt64 t.isLt⟩ := by
  funext a f
  have h : t.val * 8 + a.val < 512 := by have := lt64 t.isLt; have := a.isLt; omega
  exact iblk1_3_apply V c t a f h

/-- The body's addition at point t: the block's value plus the point's tile sum. -/
theorem step_eq (c : Dev nD) (t : Fin cfg1.N) (acc : Vec Ideal S1x1 .f32) :
    k1_pay1 (F := Ideal) (k1_pay4 (iblk1 V c 0 t) (iblk1 V c 2 t) (iblk1 V c 1 t) (iblk1 V c 3 t)) acc (ix2 0 0)
      = acc (ix2 0 0) + tileOf V c t.val := by
  rw [tile_step, centre_s, centre_t, iblk1_0, iblk1_2]
  unfold tileOf
  rw [dif_pos (lt64 t.isLt)]
  rfl

/-- Before the last point the block holds the running sum of the tile sums. -/
theorem accAt_eq_accum (c : Dev nD) : ∀ (n : ℕ) (hn : n < cfg1.N), n < 63 →
    accAt V c n hn (ix2 0 0) = Cert.LibTileSums.accum (tileOf V c) n
  | 0, hn, _ => by
    have h1 : ¬cond1_1 (grid1.coords ⟨0, hn⟩) := fun h => by have h' := (hcond1_1 ⟨0, hn⟩).mp h; dsimp only at h'; omega
    rw [show accAt V c 0 hn = accAt V c (⟨0, hn⟩ : Fin cfg1.N).val (⟨0, hn⟩ : Fin cfg1.N).isLt from rfl,
      accAt_first V c ⟨0, hn⟩ (Nat.zero_mod _) h1, outFirst_eq, step_eq, pay3_apply]
    rfl
  | n + 1, hn, h63 => by
    have h0 : ¬cond1_0 (grid1.coords ⟨n + 1, hn⟩) := fun h => by have h' := (hcond1_0 ⟨n + 1, hn⟩).mp h; dsimp only at h'; omega
    have hl : ¬(⟨n + 1, hn⟩ : Fin cfg1.N).val % 64 = 63 := by dsimp only; omega
    rw [show accAt V c (n + 1) hn = accAt V c (⟨n + 1, hn⟩ : Fin cfg1.N).val (⟨n + 1, hn⟩ : Fin cfg1.N).isLt from rfl,
      accAt_mid V c ⟨n + 1, hn⟩ h0 hl, outMid_eq, step_eq]
    rw [show accAt V c ((⟨n + 1, hn⟩ : Fin cfg1.N).val - 1) _ = accAt V c n (Nat.lt_of_succ_lt hn) from rfl,
      accAt_eq_accum c n (Nat.lt_of_succ_lt hn) (by omega)]
    rfl

/-- After the last point the block holds the loss of the two tables. -/
theorem accAt_last_eq (c : Dev nD) (h63 : 63 < cfg1.N) :
    accAt V c 63 h63 (ix2 0 0) = loss (sTab V c) (tTab V c) := by
  have h0 : ¬cond1_0 (grid1.coords ⟨63, h63⟩) := fun h => by have h' := (hcond1_0 ⟨63, h63⟩).mp h; dsimp only at h'; omega
  rw [show accAt V c 63 h63 = accAt V c (⟨63, h63⟩ : Fin cfg1.N).val (⟨63, h63⟩ : Fin cfg1.N).isLt from rfl,
    accAt_last V c ⟨63, h63⟩ h0 (by dsimp only), outLast_eq, pay2_apply, step_eq]
  rw [show accAt V c ((⟨63, h63⟩ : Fin cfg1.N).val - 1) _ = accAt V c 62 (by omega) from rfl,
    accAt_eq_accum V c 62 (by omega) (by omega)]
  unfold loss
  congr 1
  rw [show Cert.LibTileSums.accum (tileOf V c) 62 + tileOf V c (⟨63, h63⟩ : Fin cfg1.N).val = Cert.LibTileSums.accum (tileOf V c) 63 from rfl,
    Cert.LibTileSums.accum_eq_sum, total_eq_tiles]
  refine Finset.sum_congr rfl fun n _ => ?_
  unfold tileOf
  rw [dif_pos n.isLt]

end Cert.KernelIdeal.Hand

end
-- ==== Proof.EmbedArray.lean ====
/-
  The embedding launch has one grid point and every window's block is its whole array, so each result table ends
  holding exactly what the body stored: the embedding of the argument arrays as the launch found them.
-/
import proofs.«132771_j86723979641277_1_alg».proof.Proof.Gen.KernelIdeal.Launch
import proofs.«132771_j86723979641277_1_alg».proof.Proof.Gen.KernelIdeal.Skeleton
import proofs.«132771_j86723979641277_1_alg».proof.Proof.Gen.KernelIdeal.Points
import proofs.«132771_j86723979641277_1_alg».proof.Proof.EmbedBody
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The index maps over the one-point grid: every window sits at block index zero on every axis. -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## Each operand block is its array -/

/-- Window 0's one block is its whole array. -/
theorem iblk0_0_eq (c : Dev nD) (t : Fin cfg0.N) : iblk0 V c 0 t = V c main_arg0 := by
  obtain ⟨e00, e01, e10, e11, e20, e30, e31, e40, e41, e50, -⟩ := idx0 t
  funext y
  unfold iblk0
  rw [View.read_apply]
  show V c main_arg0 (((cfg0.win 0).blk t).view.emb y) = V c main_arg0 y
  refine congrArg _ ?_
  funext a; apply Fin.ext
  match a with
  | ⟨0, _⟩ => show win0_0.index t (0 : Fin 2) * 512 + 1 * (y 0).val = (y 0).val; omega
  | ⟨1, _⟩ => show win0_0.index t (1 : Fin 2) * 512 + 1 * (y 1).val = (y 1).val; omega

/-- Window 1's one block is its whole array. -/
theorem iblk0_1_eq (c : Dev nD) (t : Fin cfg0.N) : iblk0 V c 1 t = V c main_arg2 := by
  obtain ⟨e00, e01, e10, e11, e20, e30, e31, e40, e41, e50, -⟩ := idx0 t
  funext y
  unfold iblk0
  rw [View.read_apply]
  show V c main_arg2 (((cfg0.win 1).blk t).view.emb y) = V c main_arg2 y
  refine congrArg _ ?_
  funext a; apply Fin.ext
  match a with
  | ⟨0, _⟩ => show win0_1.index t (0 : Fin 2) * 512 + 1 * (y 0).val = (y 0).val; omega
  | ⟨1, _⟩ => show win0_1.index t (1 : Fin 2) * 128 + 1 * (y 1).val = (y 1).val; omega

/-- Window 2's one block is its whole array. -/
theorem iblk0_2_eq (c : Dev nD) (t : Fin cfg0.N) : iblk0 V c 2 t = V c main_arg3 := by
  obtain ⟨e00, e01, e10, e11, e20, e30, e31, e40, e41, e50, -⟩ := idx0 t
  funext y
  unfold iblk0
  rw [View.read_apply]
  show V c main_arg3 (((cfg0.win 2).blk t).view.emb y) = V c main_arg3 y
  refine congrArg _ ?_
  funext a; apply Fin.ext
  match a with
  | ⟨0, _⟩ => show win0_2.index t (0 : Fin 1) * 128 + 1 * (y 0).val = (y 0).val; omega

/-- Window 3's one block is its whole array. -/
theorem iblk0_3_eq (c : Dev nD) (t : Fin cfg0.N) : iblk0 V c 3 t = V c main_arg1 := by
  obtain ⟨e00, e01, e10, e11, e20, e30, e31, e40, e41, e50, -⟩ := idx0 t
  funext y
  unfold iblk0
  rw [View.read_apply]
  show V c main_arg1 (((cfg0.win 3).blk t).view.emb y) = V c main_arg1 y
  refine congrArg _ ?_
  funext a; apply Fin.ext
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- Window 4's one block is its whole array. -/
theorem iblk0_4_eq (c : Dev nD) (t : Fin cfg0.N) : iblk0 V c 4 t = V c main_arg4 := by
  obtain ⟨e00, e01, e10, e11, e20, e30, e31, e40, e41, e50, -⟩ := idx0 t
  funext y
  unfold iblk0
  rw [View.read_apply]
  show V c main_arg4 (((cfg0.win 4).blk t).view.emb y) = V c main_arg4 y
  refine congrArg _ ?_
  funext a; apply Fin.ext
  match a with
  | ⟨0, _⟩ => show win0_4.index t (0 : Fin 2) * 512 + 1 * (y 0).val = (y 0).val; omega
  | ⟨1, _⟩ => show win0_4.index t (1 : Fin 2) * 128 + 1 * (y 1).val = (y 1).val; omega

/-- Window 5's one block is its whole array. -/
theorem iblk0_5_eq (c : Dev nD) (t : Fin cfg0.N) : iblk0 V c 5 t = V c main_arg5 := by
  obtain ⟨e00, e01, e10, e11, e20, e30, e31, e40, e41, e50, -⟩ := idx0 t
  funext y
  unfold iblk0
  rw [View.read_apply]
  show V c main_arg5 (((cfg0.win 5).blk t).view.emb y) = V c main_arg5 y
  refine congrArg _ ?_
  funext a; apply Fin.ext
  match a with
  | ⟨0, _⟩ => show win0_5.index t (0 : Fin 1) * 128 + 1 * (y 0).val = (y 0).val; omega

/-! ## The student table -/

/-- What the one point writes back into result window 6: the embedding of the argument arrays, read through the block. -/
theorem flushed0_6 (c : Dev nD) (t : Fin cfg0.N) :
    (dat0 V c).flushed 6 t = ((cfg0.win 6).blk t).view.read (Elt F) (embOut (V c main_arg0) (V c main_arg2) (V c main_arg3)) := by
  obtain ⟨-, -, -, -, -, -, -, -, -, -, e60, e61, e70, e71⟩ := idx0 t
  show (cfg0.win 6).cut (grid0.coords t) ((dat0 V c).after 6 t) = _
  rw [after0_6, iblk0_0_eq, iblk0_1_eq, iblk0_2_eq]
  funext y
  rw [View.read_apply]
  show embOut (V c main_arg0) (V c main_arg2) (V c main_arg3) ((cfg0.win 6).xinj (grid0.coords t) y)
    = embOut (V c main_arg0) (V c main_arg2) (V c main_arg3) (((cfg0.win 6).blk t).view.emb y)
  refine congrArg _ ?_
  funext a; apply Fin.ext
  match a with
  | ⟨0, _⟩ => show (y 0).val = win0_6.index t (0 : Fin 2) * 512 + 1 * (y 0).val; omega
  | ⟨1, _⟩ => show (y 1).val = win0_6.index t (1 : Fin 2) * 128 + 1 * (y 1).val; omega

/-- An index of the table is in the point's block iff each coordinate is in the block's range on its axis. -/
theorem mem_blk0_6 (t : Fin cfg0.N) (i : S512x128.Idx) :
    i ∈ ((cfg0.win 6).blk t).view.set ↔ ∀ a : Fin 2, win0_6.index t a * S512x128.size a ≤ (i a).val ∧ (i a).val < win0_6.index t a * S512x128.size a + S512x128.size a := by
  show i ∈ ((View.whole main_v0_0).slice (win0_6.rect t)).set ↔ _
  rw [View.set_slice_whole, Rect.mem_set_unit]
  exact Iff.rfl

/-- The one block covers the table. -/
theorem cover0_6 (i : S512x128.Idx) : ∃ t : Fin cfg0.N, (cfg0.win 6).flush t = true ∧ i ∈ ((cfg0.win 6).blk t).view.set := by
  refine ⟨⟨0, by decide⟩, flush0_6 _, ?_⟩
  obtain ⟨-, -, -, -, -, -, -, -, -, -, e60, e61, e70, e71⟩ := idx0 ⟨0, by decide⟩
  rw [mem_blk0_6]
  intro a
  match a with
  | ⟨0, _⟩ => show win0_6.index ⟨0, _⟩ (0 : Fin 2) * 512 ≤ (i 0).val ∧ (i 0).val < win0_6.index ⟨0, _⟩ (0 : Fin 2) * 512 + 512; have h : (i 0).val < 512 := (i 0).isLt; omega
  | ⟨1, _⟩ => show win0_6.index ⟨0, _⟩ (1 : Fin 2) * 128 ≤ (i 1).val ∧ (i 1).val < win0_6.index ⟨0, _⟩ (1 : Fin 2) * 128 + 128; have h : (i 1).val < 128 := (i 1).isLt; omega

/-- The student table after the launch. -/
theorem arrAt0_6 (c : Dev nD) : (dat0 V c).arrAt 6 cfg0.N = embOut (V c main_arg0) (V c main_arg2) (V c main_arg3) :=
  (dat0 V c).arrAt_eq_of_cover 6 _ (fun t _ => flushed0_6 V c t) cover0_6

/-! ## The teacher table -/

/-- What the one point writes back into result window 7: the embedding of the argument arrays, read through the block. -/
theorem flushed0_7 (c : Dev nD) (t : Fin cfg0.N) :
    (dat0 V c).flushed 7 t = ((cfg0.win 7).blk t).view.read (Elt F) (embOut' (V c main_arg1) (V c main_arg4) (V c main_arg5)) := by
  obtain ⟨-, -, -, -, -, -, -, -, -, -, e60, e61, e70, e71⟩ := idx0 t
  show (cfg0.win 7).cut (grid0.coords t) ((dat0 V c).after 7 t) = _
  rw [after0_7, iblk0_3_eq, iblk0_4_eq, iblk0_5_eq]
  funext y
  rw [View.read_apply]
  show embOut' (V c main_arg1) (V c main_arg4) (V c main_arg5) ((cfg0.win 7).xinj (grid0.coords t) y)
    = embOut' (V c main_arg1) (V c main_arg4) (V c main_arg5) (((cfg0.win 7).blk t).view.emb y)
  refine congrArg _ ?_
  funext a; apply Fin.ext
  match a with
  | ⟨0, _⟩ => show (y 0).val = win0_7.index t (0 : Fin 2) * 512 + 1 * (y 0).val; omega
  | ⟨1, _⟩ => show (y 1).val = win0_7.index t (1 : Fin 2) * 128 + 1 * (y 1).val; omega

/-- An index of the table is in the point's block iff each coordinate is in the block's range on its axis. -/
theorem mem_blk0_7 (t : Fin cfg0.N) (i : S512x128.Idx) :
    i ∈ ((cfg0.win 7).blk t).view.set ↔ ∀ a : Fin 2, win0_7.index t a * S512x128.size a ≤ (i a).val ∧ (i a).val < win0_7.index t a * S512x128.size a + S512x128.size a := by
  show i ∈ ((View.whole main_v0_1).slice (win0_7.rect t)).set ↔ _
  rw [View.set_slice_whole, Rect.mem_set_unit]
  exact Iff.rfl

/-- The one block covers the table. -/
theorem cover0_7 (i : S512x128.Idx) : ∃ t : Fin cfg0.N, (cfg0.win 7).flush t = true ∧ i ∈ ((cfg0.win 7).blk t).view.set := by
  refine ⟨⟨0, by decide⟩, flush0_7 _, ?_⟩
  obtain ⟨-, -, -, -, -, -, -, -, -, -, e60, e61, e70, e71⟩ := idx0 ⟨0, by decide⟩
  rw [mem_blk0_7]
  intro a
  match a with
  | ⟨0, _⟩ => show win0_7.index ⟨0, _⟩ (0 : Fin 2) * 512 ≤ (i 0).val ∧ (i 0).val < win0_7.index ⟨0, _⟩ (0 : Fin 2) * 512 + 512; have h : (i 0).val < 512 := (i 0).isLt; omega
  | ⟨1, _⟩ => show win0_7.index ⟨0, _⟩ (1 : Fin 2) * 128 ≤ (i 1).val ∧ (i 1).val < win0_7.index ⟨0, _⟩ (1 : Fin 2) * 128 + 128; have h : (i 1).val < 128 := (i 1).isLt; omega

/-- The teacher table after the launch. -/
theorem arrAt0_7 (c : Dev nD) : (dat0 V c).arrAt 7 cfg0.N = embOut' (V c main_arg1) (V c main_arg4) (V c main_arg5) :=
  (dat0 V c).arrAt_eq_of_cover 7 _ (fun t _ => flushed0_7 V c t) cover0_7

end Cert.KernelIdeal.Hand

end
-- ==== Proof.EmbedValue.lean ====
/-
  The embedding block  x · w + b  read at one element: row i, feature f is the sum over k of x(i,k) · w(k,f), plus b(f).
-/
import proofs.«132771_j86723979641277_1_alg».proof.Proof.EmbedBody
import proofs.«132771_j86723979641277_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.AngleSpec
open Idealize.ShloMosaic Idealize.ShloMosaic.ValueIdx

/-! ## One whole-block store is its payload -/

/-- The rank-2 rectangles start at the origin. -/
theorem origin2 : (![0, 0] : Fin 2 → Nat) = fun _ => 0 := funext fun a => by fin_cases a <;> rfl

/-- The rank-1 rectangle starts at the origin. -/
theorem origin1 : (![0] : Fin 1 → Nat) = fun _ => 0 := funext fun a => by fin_cases a; rfl

/-- The student block is the first payload of the three operands read whole. -/
theorem embOut_eq (x : Vec Ideal S512x512 .f32) (w : Vec Ideal S512x128 .f32) (b : Vec Ideal S128 .f32) :
    embOut (F := Ideal) x w b = k0_pay1 (F := Ideal) x w b := by
  unfold embOut
  rw [View.canon_unit_zero origin2]
  simp only [View.ld_unit_zero (S := S512x512) origin2, View.ld_unit_zero (S := S512x128) origin2,
    View.ld_unit_zero (S := S128) origin1]

/-- The teacher block is the second payload of the three operands read whole. -/
theorem embOut'_eq (x : Vec Ideal S512x512 .f32) (w : Vec Ideal S512x128 .f32) (b : Vec Ideal S128 .f32) :
    embOut' (F := Ideal) x w b = k0_pay2 (F := Ideal) x w b := by
  unfold embOut'
  rw [View.canon_unit_zero origin2]
  simp only [View.ld_unit_zero (S := S512x512) origin2, View.ld_unit_zero (S := S512x128) origin2,
    View.ld_unit_zero (S := S128) origin1]

/-! ## The product: which operand entries the contraction index k meets at the result's (i, f) -/

/-- The left operand's row is the result's row. -/
theorem lhs_row (j : S512x128.Idx) (q : dot_S512x512_S512x128_S512x128_1_0_0_1_n_n.contr.Idx) :
    (dot_S512x512_S512x128_S512x128_1_0_0_1_n_n.lhsIdx j q 0).val = (j 0).val := by
  unfold DotDims.lhsIdx
  rw [dif_neg (show ¬(0 : Fin S512x512.rank) ∈ dot_S512x512_S512x128_S512x128_1_0_0_1_n_n.lhsBatch by decide),
    dif_pos (show (0 : Fin S512x512.rank) ∈ dot_S512x512_S512x128_S512x128_1_0_0_1_n_n.lhsNonContracting by decide)]
  rfl

/-- The left operand's column is the contraction coordinate. -/
theorem lhs_col (j : S512x128.Idx) (q : dot_S512x512_S512x128_S512x128_1_0_0_1_n_n.contr.Idx) :
    (dot_S512x512_S512x128_S512x128_1_0_0_1_n_n.lhsIdx j q 1).val = (q ⟨0, by decide⟩).val :=
  dot_S512x512_S512x128_S512x128_1_0_0_1_n_n.lhsIdx_val_of_single rfl j q

/-- The right operand's row is the contraction coordinate. -/
theorem rhs_row (j : S512x128.Idx) (q : dot_S512x512_S512x128_S512x128_1_0_0_1_n_n.contr.Idx) :
    (dot_S512x512_S512x128_S512x128_1_0_0_1_n_n.rhsIdx j q 0).val = (q ⟨0, by decide⟩).val :=
  dot_S512x512_S512x128_S512x128_1_0_0_1_n_n.rhsIdx_val_of_single rfl j q

/-- The right operand's column is the result's column. -/
theorem rhs_col (j : S512x128.Idx) (q : dot_S512x512_S512x128_S512x128_1_0_0_1_n_n.contr.Idx) :
    (dot_S512x512_S512x128_S512x128_1_0_0_1_n_n.rhsIdx j q 1).val = (j 1).val := by
  unfold DotDims.rhsIdx
  rw [dif_neg (show ¬(1 : Fin S512x128.rank) ∈ dot_S512x512_S512x128_S512x128_1_0_0_1_n_n.rhsBatch by decide),
    dif_pos (show (1 : Fin S512x128.rank) ∈ dot_S512x512_S512x128_S512x128_1_0_0_1_n_n.rhsNonContracting by decide)]
  rfl

/-- The product onto the zero accumulator at (i, f): the sum over k of x(i,k) · w(k,f). -/
theorem product_apply (x : Vec Ideal S512x512 .f32) (w : Vec Ideal S512x128 .f32) (i : Fin 512) (f : Fin 128) :
    matmul (F := Ideal) (φ₁ := .f32) (φ₂ := .f32) dot_S512x512_S512x128_S512x128_1_0_0_1_n_n (some .fp32) x w (constant (F := Ideal) S512x128 .f32 0x00000000#32) (ix2 i f)
      = ∑ k : Fin 512, x (ix2 i k) * w (ix2 k f) := by
  refine (Ideal.matmul_constant_zero_apply (φ₁ := .f32) (φ₂ := .f32) dot_S512x512_S512x128_S512x128_1_0_0_1_n_n (some .fp32) x w (ix2 i f)).trans ?_
  rw [← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 i f) ((contrEquiv1 dot_S512x512_S512x128_S512x128_1_0_0_1_n_n 512 rfl rfl).symm k) = ix2 i k :=
    funext fun a => Fin.ext (by
      match a with
      | ⟨0, _⟩ => exact lhs_row _ _
      | ⟨1, _⟩ => exact (lhs_col _ _).trans hk)
  have er : dot_S512x512_S512x128_S512x128_1_0_0_1_n_n.rhsIdx (ix2 i f) ((contrEquiv1 dot_S512x512_S512x128_S512x128_1_0_0_1_n_n 512 rfl rfl).symm k) = ix2 k f :=
    funext fun a => Fin.ext (by
      match a with
      | ⟨0, _⟩ => exact (rhs_row _ _).trans hk
      | ⟨1, _⟩ => exact rhs_col _ _)
  rw [el, er]

/-! ## The bias row -/

/-- The bias cast to one row and repeated down the 512 rows reads b(f) in every row. -/
theorem biasRows_apply (b : Vec Ideal S128 .f32) (i : Fin 512) (f : Fin 128) :
    broadcastTo S512x128 (shapeCast S1x128 b shapeCasts_S128_S1x128) broadcasts_S1x128_S512x128 (ix2 i f) = b (ix1 f) :=
  (broadcastTo_1b_ab_apply (shapeCast S1x128 b shapeCasts_S128_S1x128) broadcasts_S1x128_S512x128 i f).trans
    (shapeCast_a_1a_apply b shapeCasts_S128_S1x128 (0 : Fin 1) f)

/-! ## The payloads and the blocks at (i, f) -/

theorem studentLayer_apply (x : Vec Ideal S512x512 .f32) (w : Vec Ideal S512x128 .f32) (b : Vec Ideal S128 .f32) (i : Fin 512) (f : Fin 128) :
    k0_pay1 (F := Ideal) x w b (ix2 i f) = (∑ k : Fin 512, x (ix2 i k) * w (ix2 k f)) + b (ix1 f) := by
  unfold k0_pay1
  refine (addf_apply _ _ (ix2 i f)).trans ?_
  rw [product_apply x w i f, biasRows_apply b i f]

theorem teacherLayer_apply (x : Vec Ideal S512x512 .f32) (w : Vec Ideal S512x128 .f32) (b : Vec Ideal S128 .f32) (i : Fin 512) (f : Fin 128) :
    k0_pay2 (F := Ideal) x w b (ix2 i f) = (∑ k : Fin 512, x (ix2 i k) * w (ix2 k f)) + b (ix1 f) := by
  unfold k0_pay2
  refine (addf_apply _ _ (ix2 i f)).trans ?_
  rw [product_apply x w i f, biasRows_apply b i f]

/-- The student embedding's block at (i, f). -/
theorem embOut_apply (x : Vec Ideal S512x512 .f32) (w : Vec Ideal S512x128 .f32) (b : Vec Ideal S128 .f32) (i : Fin 512) (f : Fin 128) :
    embOut (F := Ideal) x w b (ix2 i f) = embed (mat x) (mat w) (vec b) i f := by
  rw [embOut_eq, studentLayer_apply]
  rfl

/-- The teacher embedding's block at (i, f). -/
theorem embOut'_apply (x : Vec Ideal S512x512 .f32) (w : Vec Ideal S512x128 .f32) (b : Vec Ideal S128 .f32) (i : Fin 512) (f : Fin 128) :
    embOut' (F := Ideal) x w b (ix2 i f) = embed (mat x) (mat w) (vec b) i f := by
  rw [embOut'_eq, teacherLayer_apply]
  rfl

end Cert.KernelIdeal.Hand

end
-- ==== Proof.KernelValue.lean ====
/-
  The kernel program's scalar result is the loss of the six argument arrays: the reshape reads the one element of the
  angle-loss launch's result array, which holds the loss of the two embedding tables the first launch left, and those
  tables are the dense layers of the arguments.
-/
import proofs.«132771_j86723979641277_1_alg».proof.Proof.Gen.KernelIdeal.Launch
import proofs.«132771_j86723979641277_1_alg».proof.Proof.Gen.KernelIdeal.Skeleton
import proofs.«132771_j86723979641277_1_alg».proof.Proof.Gen.KernelIdeal.Points
import proofs.«132771_j86723979641277_1_alg».proof.Proof.Program
import proofs.«132771_j86723979641277_1_alg».proof.Proof.AngleTotal
import proofs.«132771_j86723979641277_1_alg».proof.Proof.EmbedArray
import proofs.«132771_j86723979641277_1_alg».proof.Proof.EmbedValue
import Idealize.ShloMosaic.Lib.StableHlo.Run
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.AngleSpec Idealize.ShloMosaic.ValueIdx

variable (m : (ℓ : Loc nD τ sig) → Buf (Elt Ideal) ℓ)

/-- The student table at the first boundary: the embedding of student, W1, b1. -/
theorem V1_student (c : Dev nD) :
    V1 m c main_v0_0 = embOut (F := Ideal) (m ((c : Thread nD τ).loc main_arg0)) (m ((c : Thread nD τ).loc main_arg2)) (m ((c : Thread nD τ).loc main_arg3)) :=
  (W1_arr m c 6).trans (arrAt0_6 (V0 m) c)

/-- The teacher table at the first boundary: the embedding of teacher, W2, b2. -/
theorem V1_teacher (c : Dev nD) :
    V1 m c main_v0_1 = embOut' (F := Ideal) (m ((c : Thread nD τ).loc main_arg1)) (m ((c : Thread nD τ).loc main_arg4)) (m ((c : Thread nD τ).loc main_arg5)) :=
  (W1_arr m c 7).trans (arrAt0_7 (V0 m) c)

theorem sTab_eq (c : Dev nD) : sTab (V1 m) c
    = embed (mat (m ((c : Thread nD τ).loc main_arg0))) (mat (m ((c : Thread nD τ).loc main_arg2))) (vec (m ((c : Thread nD τ).loc main_arg3))) := by
  funext i f
  exact (congrFun (V1_student m c) (ix2 i f)).trans (embOut_apply _ _ _ i f)

theorem tTab_eq (c : Dev nD) : tTab (V1 m) c
    = embed (mat (m ((c : Thread nD τ).loc main_arg1))) (mat (m ((c : Thread nD τ).loc main_arg4))) (vec (m ((c : Thread nD τ).loc main_arg5))) := by
  funext i f
  exact (congrFun (V1_teacher m c) (ix2 i f)).trans (embOut'_apply _ _ _ i f)

/-- The reshape's result is the result block's one element. -/
theorem W3_main_v2 (c : Dev nD) :
    W3 m c (Proc.devRef .tc main_v2) = shapeCast S_ (W2 m c (Proc.devRef .tc main_v1)) shapeCasts_S1x1_S_ := by
  show StableHlo.after hostOps2 (W2 m c) (Proc.devRef .tc main_v2) = _
  after_results
  rfl

/-- The kernel program's result: the loss of the arguments. -/
theorem result_eq (c : Dev nD) :
    W3 m c (Proc.devRef .tc main_v2)
      = fun _ => lossOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have h63 : 63 < cfg1.N := by rw [show cfg1.N = 64 from N_1]; decide
  rw [W3_main_v2]
  funext j
  rw [shapeCast_apply _ _ j (ix2 0 0) rfl]
  refine (congrFun ((W2_main_v1 m c).trans (arrAt1_4 (V1 m) c h63)) (ix2 0 0)).trans ?_
  rw [accAt_last_eq, sTab_eq, tTab_eq]
  rfl

end Cert.KernelIdeal.Hand

end
-- ==== Proof.RefValue.lean ====
/-
  The reference's result is the loss of the six argument arrays: its 48 host operations read one at a time
  (two dense layers, the pairwise differences and their lengths, the normalisation, the batched cosine products,
  the flattening, the absolute difference, one sum over 512³ terms and the division).
  Each table is followed stage by stage at explicit coordinates: the embedding e = X · W + b, the differences
  d(i, j, f) = e(j, f) − e(i, f), their squared lengths, the floored lengths max(‖d‖, ε), the unit vectors and the
  cosines c(i, j, k) = Σ_f u(i, j, f) · u(i, k, f). The flattening matches the 512³ flat positions one to one with the
  rank-3 indices, so the one flat sum of |c_student − c_teacher| is the triple sum over centre and pair.
-/
import proofs.«132771_j86723979641277_1_alg».proof.Proof.Gen.ReferenceIdeal.Run
import proofs.«132771_j86723979641277_1_alg».proof.Proof.Gen.ReferenceIdeal.Read
import proofs.«132771_j86723979641277_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read Cert.AngleSpec
open Idealize.ShloMosaic Idealize.ShloMosaic.TcCoe Idealize.ShloMosaic.ValueIdx Idealize.SL.Sem

section Student
variable (x0 : (⟨S512x512, .f32⟩ : BufTy).Contents (Elt Ideal)) (x2 : (⟨S512x128, .f32⟩ : BufTy).Contents (Elt Ideal))
  (x3 : (⟨S128, .f32⟩ : BufTy).Contents (Elt Ideal))

/-- The dense layer: stage 3 at row i, feature f is the embedding X · W + b there. -/
theorem v3_at (i : Fin 512) (f : Fin 128) :
    val_main_v3 (F := Ideal) x0 x2 x3 (ix2 i f) = embed (mat x0) (mat x2) (vec x3) i f := by
  rw [val_main_v3_apply, val_main_v0_apply, val_main_v2_apply, val_main_v1_apply]
  refine congrArg₂ (· + ·) (Finset.sum_congr rfl fun k _ => congrArg₂ (· * ·) (congrArg x0 ?_) (congrArg x2 ?_)) (congrArg x3 ?_)
  · funext a; match a with | ⟨0, _⟩ => rfl | ⟨1, _⟩ => rfl
  · funext a; match a with | ⟨0, _⟩ => rfl | ⟨1, _⟩ => rfl
  · funext a; match a with | ⟨0, _⟩ => rfl

/-- The pairwise differences: stage 12 at (i, j, f) is e(j, f) − e(i, f), the difference from the centre e(i). -/
theorem v12_at (i j : Fin 512) (f : Fin 128) :
    val_main_v12 (F := Ideal) x0 x2 x3 (ix3 i j f)
      = diffR (embed (mat x0) (mat x2) (vec x3)) (embed (mat x0) (mat x2) (vec x3) i) j f := by
  have h1 : idx_main_v8 (idx_main_v10 (ix3 i j f)) = ix2 j f := by
    funext a; match a with | ⟨0, _⟩ => rfl | ⟨1, _⟩ => rfl
  have h2 : idx_main_v9 (idx_main_v11 (ix3 i j f)) = ix2 i f := by
    funext a; match a with | ⟨0, _⟩ => rfl | ⟨1, _⟩ => rfl
  rw [val_main_v12_apply, val_main_v10_apply, val_main_v8_apply, val_main_v11_apply, val_main_v9_apply, h1, h2, v3_at, v3_at]
  rfl

/-- The squared length: stage 14 at (i, j) is the sum over the features of the squared differences. -/
theorem v14_at (i j : Fin 512) :
    val_main_v14 (F := Ideal) x0 x2 x3 (ix2 i j)
      = ∑ f : Fin 128, diffR (embed (mat x0) (mat x2) (vec x3)) (embed (mat x0) (mat x2) (vec x3) i) j f
          * diffR (embed (mat x0) (mat x2) (vec x3)) (embed (mat x0) (mat x2) (vec x3) i) j f := by
  rw [val_main_v14_apply, val_main_cst_apply, Ideal.ofBits_def, Ideal.ofBits_zero_f32, zero_add]
  refine Finset.sum_congr rfl fun f _ => ?_
  have h : idx_main_v14 (ix2 i j) f = ix3 i j f := by
    funext a; match a with | ⟨0, _⟩ => rfl | ⟨1, _⟩ => rfl | ⟨2, _⟩ => rfl
  rw [h, val_main_v13_apply, v12_at]
  rfl

/-- The floored length: stage 18 at (i, j, ·) is max(‖d(i, j)‖, ε). -/
theorem v18_at (i j : Fin 512) (z : Fin 1) :
    val_main_v18 (F := Ideal) x0 x2 x3 (ix3 i j z)
      = max (nrmR (embed (mat x0) (mat x2) (vec x3)) (embed (mat x0) (mat x2) (vec x3) i) j) eps := by
  have h : idx_main_v15 (ix3 i j z) = ix2 i j := by
    funext a; match a with | ⟨0, _⟩ => rfl | ⟨1, _⟩ => rfl
  rw [val_main_v18_apply, val_main_v16_apply, val_main_v15_apply, val_main_v17_apply, val_main_cst_0_apply, h, v14_at]
  rfl

/-- The unit vectors: stage 20 at (i, j, f) is the difference divided by its floored length. -/
theorem v20_at (i j : Fin 512) (f : Fin 128) :
    val_main_v20 (F := Ideal) x0 x2 x3 (ix3 i j f)
      = unitR (embed (mat x0) (mat x2) (vec x3)) (embed (mat x0) (mat x2) (vec x3) i) j f := by
  have h : idx_main_v19 (ix3 i j f) = ix3 i j (⟨0, Nat.one_pos⟩ : Fin 1) := by
    funext a; match a with | ⟨0, _⟩ => rfl | ⟨1, _⟩ => rfl | ⟨2, _⟩ => rfl
  rw [val_main_v20_apply, val_main_v19_apply, h, v12_at, v18_at]
  rfl

/-- The cosines: stage 21 at (i, j, k) is the inner product of the unit vectors of rows j and k about the centre e(i). -/
theorem v21_at (i j k : Fin 512) :
    val_main_v21 (F := Ideal) x0 x2 x3 (ix3 i j k)
      = cosR (embed (mat x0) (mat x2) (vec x3)) (embed (mat x0) (mat x2) (vec x3) i) j k := by
  rw [val_main_v21_apply]
  refine Finset.sum_congr rfl fun f _ => ?_
  have hl : lidx_main_v21 (ix3 i j k) f = ix3 i j f := by
    funext a; match a with | ⟨0, _⟩ => rfl | ⟨1, _⟩ => rfl | ⟨2, _⟩ => rfl
  have hr : ridx_main_v21 (ix3 i j k) f = ix3 i k f := by
    funext a; match a with | ⟨0, _⟩ => rfl | ⟨1, _⟩ => rfl | ⟨2, _⟩ => rfl
  rw [hl, hr, v20_at, v20_at]

end Student

section Teacher
variable (x1 : (⟨S512x512, .f32⟩ : BufTy).Contents (Elt Ideal)) (x4 : (⟨S512x128, .f32⟩ : BufTy).Contents (Elt Ideal))
  (x5 : (⟨S128, .f32⟩ : BufTy).Contents (Elt Ideal))

/-- The dense layer: stage 7 at row i, feature f is the embedding X · W + b there. -/
theorem v7_at (i : Fin 512) (f : Fin 128) :
    val_main_v7 (F := Ideal) x1 x4 x5 (ix2 i f) = embed (mat x1) (mat x4) (vec x5) i f := by
  rw [val_main_v7_apply, val_main_v4_apply, val_main_v6_apply, val_main_v5_apply]
  refine congrArg₂ (· + ·) (Finset.sum_congr rfl fun k _ => congrArg₂ (· * ·) (congrArg x1 ?_) (congrArg x4 ?_)) (congrArg x5 ?_)
  · funext a; match a with | ⟨0, _⟩ => rfl | ⟨1, _⟩ => rfl
  · funext a; match a with | ⟨0, _⟩ => rfl | ⟨1, _⟩ => rfl
  · funext a; match a with | ⟨0, _⟩ => rfl

/-- The pairwise differences: stage 27 at (i, j, f) is e(j, f) − e(i, f), the difference from the centre e(i). -/
theorem v27_at (i j : Fin 512) (f : Fin 128) :
    val_main_v27 (F := Ideal) x1 x4 x5 (ix3 i j f)
      = diffR (embed (mat x1) (mat x4) (vec x5)) (embed (mat x1) (mat x4) (vec x5) i) j f := by
  have h1 : idx_main_v23 (idx_main_v25 (ix3 i j f)) = ix2 j f := by
    funext a; match a with | ⟨0, _⟩ => rfl | ⟨1, _⟩ => rfl
  have h2 : idx_main_v24 (idx_main_v26 (ix3 i j f)) = ix2 i f := by
    funext a; match a with | ⟨0, _⟩ => rfl | ⟨1, _⟩ => rfl
  rw [val_main_v27_apply, val_main_v25_apply, val_main_v23_apply, val_main_v26_apply, val_main_v24_apply, h1, h2, v7_at, v7_at]
  rfl

/-- The squared length: stage 29 at (i, j) is the sum over the features of the squared differences. -/
theorem v29_at (i j : Fin 512) :
    val_main_v29 (F := Ideal) x1 x4 x5 (ix2 i j)
      = ∑ f : Fin 128, diffR (embed (mat x1) (mat x4) (vec x5)) (embed (mat x1) (mat x4) (vec x5) i) j f
          * diffR (embed (mat x1) (mat x4) (vec x5)) (embed (mat x1) (mat x4) (vec x5) i) j f := by
  rw [val_main_v29_apply, val_main_cst_1_apply, Ideal.ofBits_def, Ideal.ofBits_zero_f32, zero_add]
  refine Finset.sum_congr rfl fun f _ => ?_
  have h : idx_main_v29 (ix2 i j) f = ix3 i j f := by
    funext a; match a with | ⟨0, _⟩ => rfl | ⟨1, _⟩ => rfl | ⟨2, _⟩ => rfl
  rw [h, val_main_v28_apply, v27_at]
  rfl

/-- The floored length: stage 33 at (i, j, ·) is max(‖d(i, j)‖, ε). -/
theorem v33_at (i j : Fin 512) (z : Fin 1) :
    val_main_v33 (F := Ideal) x1 x4 x5 (ix3 i j z)
      = max (nrmR (embed (mat x1) (mat x4) (vec x5)) (embed (mat x1) (mat x4) (vec x5) i) j) eps := by
  have h : idx_main_v30 (ix3 i j z) = ix2 i j := by
    funext a; match a with | ⟨0, _⟩ => rfl | ⟨1, _⟩ => rfl
  rw [val_main_v33_apply, val_main_v31_apply, val_main_v30_apply, val_main_v32_apply, val_main_cst_2_apply, h, v29_at]
  rfl

/-- The unit vectors: stage 35 at (i, j, f) is the difference divided by its floored length. -/
theorem v35_at (i j : Fin 512) (f : Fin 128) :
    val_main_v35 (F := Ideal) x1 x4 x5 (ix3 i j f)
      = unitR (embed (mat x1) (mat x4) (vec x5)) (embed (mat x1) (mat x4) (vec x5) i) j f := by
  have h : idx_main_v34 (ix3 i j f) = ix3 i j (⟨0, Nat.one_pos⟩ : Fin 1) := by
    funext a; match a with | ⟨0, _⟩ => rfl | ⟨1, _⟩ => rfl | ⟨2, _⟩ => rfl
  rw [val_main_v35_apply, val_main_v34_apply, h, v27_at, v33_at]
  rfl

/-- The cosines: stage 36 at (i, j, k) is the inner product of the unit vectors of rows j and k about the centre e(i). -/
theorem v36_at (i j k : Fin 512) :
    val_main_v36 (F := Ideal) x1 x4 x5 (ix3 i j k)
      = cosR (embed (mat x1) (mat x4) (vec x5)) (embed (mat x1) (mat x4) (vec x5) i) j k := by
  rw [val_main_v36_apply]
  refine Finset.sum_congr rfl fun f _ => ?_
  have hl : lidx_main_v36 (ix3 i j k) f = ix3 i j f := by
    funext a; match a with | ⟨0, _⟩ => rfl | ⟨1, _⟩ => rfl | ⟨2, _⟩ => rfl
  have hr : ridx_main_v36 (ix3 i j k) f = ix3 i k f := by
    funext a; match a with | ⟨0, _⟩ => rfl | ⟨1, _⟩ => rfl | ⟨2, _⟩ => rfl
  rw [hl, hr, v35_at, v35_at]

end Teacher

/-- A sum over a rank-3 index set is the triple sum over its coordinates. -/
theorem sum_idx3 {n0 n1 n2 : Nat} (g : (⟨3, ![n0, n1, n2]⟩ : Shape).Idx → EReal) :
    ∑ y, g y = ∑ a : Fin n0, ∑ b : Fin n1, ∑ c : Fin n2, g (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm g, Fintype.sum_prod_type]
  refine Finset.sum_congr rfl fun a _ => ?_
  rw [Fintype.sum_prod_type]
  rfl

section Whole
variable (x0 x1 : (⟨S512x512, .f32⟩ : BufTy).Contents (Elt Ideal)) (x2 : (⟨S512x128, .f32⟩ : BufTy).Contents (Elt Ideal))
  (x3 : (⟨S128, .f32⟩ : BufTy).Contents (Elt Ideal)) (x4 : (⟨S512x128, .f32⟩ : BufTy).Contents (Elt Ideal))
  (x5 : (⟨S128, .f32⟩ : BufTy).Contents (Elt Ideal))

/-- A flat position holds the absolute difference of the two cosine tables at the rank-3 index the reshape matches it with. -/
theorem v39_at (n : S134217728.Idx) :
    val_main_v39 (F := Ideal) x0 x1 x2 x3 x4 x5 n
      = (fun y : S512x512x512.Idx => absE (val_main_v21 (F := Ideal) x0 x2 x3 y - val_main_v36 (F := Ideal) x1 x4 x5 y))
          (Shape.reshapeEquiv shapeCasts_S512x512x512_S134217728 n) := by
  rw [val_main_v39_apply, val_main_v38_apply]
  unfold val_main_v22 val_main_v37 shapeCast
  rfl

/-- The one sum over the 512³ flat positions is the sum over every centre and pair: the reshape matches the positions
    one to one with the rank-3 indices, and those are the triples of coordinates. -/
theorem v40_at (i : S_.Idx) :
    val_main_v40 (F := Ideal) x0 x1 x2 x3 x4 x5 i
      = total (embed (mat x0) (mat x2) (vec x3)) (embed (mat x1) (mat x4) (vec x5)) := by
  rw [val_main_v40_apply, val_main_cst_3_apply, Ideal.ofBits_def, Ideal.ofBits_zero_f32, zero_add]
  refine (Finset.sum_congr rfl fun n _ => v39_at x0 x1 x2 x3 x4 x5 n).trans ?_
  refine (Equiv.sum_comp (Shape.reshapeEquiv shapeCasts_S512x512x512_S134217728)
    (fun y : S512x512x512.Idx => absE (val_main_v21 (F := Ideal) x0 x2 x3 y - val_main_v36 (F := Ideal) x1 x4 x5 y))).trans ?_
  rw [sum_idx3]
  unfold total
  refine Finset.sum_congr rfl fun a _ => Finset.sum_congr rfl fun b _ => Finset.sum_congr rfl fun d _ => ?_
  show absE (val_main_v21 (F := Ideal) x0 x2 x3 (ix3 a b d) - val_main_v36 (F := Ideal) x1 x4 x5 (ix3 a b d)) = _
  rw [v21_at, v36_at]
  rfl

end Whole

/-- The reference run's result term is the loss of the arguments. -/
theorem result_eq (m : (ℓ : Loc nD τ sig) → Buf (Elt Ideal) ℓ) (c : Dev nD) :
    Cert.ReferenceIdeal.Value.res_out0 (F := Ideal) m c
      = fun _ => lossOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (val_main_v41_eq (F := Ideal) m c).trans ?_
  funext i
  rw [val_main_v41_apply, v40_at, val_main_cst_4_apply]
  rfl

end Cert.ReferenceIdeal.RefValue

end
-- ==== Proof.lean ====
/-
  The certificate's claim. Kernel and its idealization are one text: two pallas_calls and a reshape. The first
  launch forms the two embedding tables  student · W1 + b1  and  teacher · W2 + b2  in one grid point; the second
  walks the 512 centre rows in 64 tiles of 8, at each tile normalising the difference vectors from the tile's centres
  to every row, forming the two cosine tables, and adding the sum of their absolute differences to a running sum
  that is reset at the first tile and divided by 512³ after the last. The reference forms the same tables, the full
  512×512×512 cosine tables, and takes the mean of the absolute difference. Over the extended reals every operation
  of the two sides is the same textbook operation, and a sum over the 512 centres is the sum over the 64 tiles of the
  sums over each tile's 8 centres; so both results are the one loss of the six argument arrays. The frames follow each
  program's buffers boundary by boundary; the idealization rewrote nothing, so what it preserves is trivial.
-/
import proofs.«132771_j86723979641277_1_alg».proof.Defs
import proofs.«132771_j86723979641277_1_alg».proof.Proof.Gen.Kernel
import proofs.«132771_j86723979641277_1_alg».proof.Proof.Gen.KernelIdeal
import proofs.«132771_j86723979641277_1_alg».proof.Proof.Gen.ReferenceIdeal
import proofs.«132771_j86723979641277_1_alg».proof.Proof.Gen.Pre_finite_inputs
import proofs.«132771_j86723979641277_1_alg».proof.Proof.Gen.ReferenceIdeal.Run
import proofs.«132771_j86723979641277_1_alg».proof.Proof.Bits.Program
import proofs.«132771_j86723979641277_1_alg».proof.Proof.Program
import proofs.«132771_j86723979641277_1_alg».proof.Proof.KernelValue
import proofs.«132771_j86723979641277_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched. -/
theorem frame_k : Cert.frame_Kernel :=
  fun m ρ _ => Cert.Kernel.Hand.frame (F := Bits) m ρ

/-- So does the idealized program. -/
theorem frame_ki : Cert.frame_KernelIdeal :=
  fun m ρ _ => Cert.KernelIdeal.Hand.frame (F := Ideal) m ρ

/-- The reference is host operations only: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- Both programs end with the loss of the (agreeing) arguments as their result. -/
theorem algebraic : Cert.algebraic_KernelIdeal_ReferenceIdeal := by
  intro m ρ m' ρ' _ hagree
  refine ⟨fun c => Cert.KernelIdeal.Hand.W3 (F := Ideal) m c (Proc.devRef .tc Cert.KernelIdeal.main_v2), Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.RefValue.result_eq m' c).trans ?_).trans (Cert.KernelIdeal.Hand.result_eq m c).symm
  rw [(hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
